-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v47) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1600000 : Shape := ⟨1, ![1600000]⟩
abbrev S32x128 : Shape := ⟨2, ![32, 128]⟩
abbrev S32 : Shape := ⟨1, ![32]⟩
abbrev S7x32 : Shape := ⟨2, ![7, 32]⟩
abbrev S7 : Shape := ⟨1, ![7]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_
  bcast_S_S7x32 : S_.BroadcastsInDim S7x32 (![] : Fin 0 → Fin S7x32.rank)
  reducesTo_S7x32_S_d0_1 : S7x32.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg6 : FVec F S7x32 .f32) (main_arg7 : FVec F S7 .f32) (main_arg8 : FVec F S7x32 .f32) (main_v13 : IVec S_ 1) (main_v16 : IVec S32x128 1) : IVec S_ 1 :=
  let main_c_5 : IVec S_ 1 := constantI S_ 1 1#1
  let main_v17 : IVec S_ 1 := (fun x v => Host.reduce IntOp.andi x v reducesTo_S32x128_S_d0_1 h_S_) main_v16 main_c_5
  let main_v18 : IVec S_ 1 := andi main_v13 main_v17
  let main_v19 : FVec F S7x32 .f32 := Host.absf main_arg6
  let main_cst_6 : FVec F S_ .f32 := constant S_ .f32 0x7F800000#32
  let main_v20 : FVec F S7x32 .f32 := broadcastInDim S7x32 ![] bcast_S_S7x32 main_cst_6
  let main_v21 : IVec S7x32 1 := cmpf .olt main_v19 main_v20
  let main_c_7 : IVec S_ 1 := constantI S_ 1 1#1
  let main_v22 : IVec S_ 1 := (fun x v => Host.reduce IntOp.andi x v reducesTo_S7x32_S_d0_1 h_S_) main_v21 main_c_7
  let main_v23 : IVec S_ 1 := andi main_v18 main_v22
  let main_v24 : FVec F S7 .f32 := Host.absf main_arg7
  let main_cst_8 : FVec F S_ .f32 := constant S_ .f32 0x7F800000#32
  let main_v25 : FVec F S7 .f32 := broadcastInDim S7 ![] bcast_S_S7 main_cst_8
  let main_v26 : IVec S7 1 := cmpf .olt main_v24 main_v25
  let main_c_9 : IVec S_ 1 := constantI S_ 1 1#1
  let main_v27 : IVec S_ 1 := (fun x v => Host.reduce IntOp.andi x v reducesTo_S7_S_d0 h_S_) main_v26 main_c_9
  let main_v28 : IVec S_ 1 := andi main_v23 main_v27
  let main_v29 : FVec F S7x32 .f32 := Host.absf main_arg8
  let main_cst_10 : FVec F S_ .f32 := constant S_ .f32 0x7F800000#32
  let main_v30 : FVec F S7x32 .f32 := broadcastInDim S7x32 ![] bcast_S_S7x32 main_cst_10
  let main_v31 : IVec S7x32 1 := cmpf .olt main_v29 main_v30
  let main_c_11 : IVec S_ 1 := constantI S_ 1 1#1
  let main_v32 : IVec S_ 1 := (fun x v => Host.reduce IntOp.andi x v reducesTo_S7x32_S_d0_1 h_S_) main_v31 main_c_11
  let main_v33 : IVec S_ 1 := andi main_v28 main_v32
  main_v33

def fn {F : FTy → Type} [FloatOps F] (main_arg0 : FVec F S50000x128 .f32) (main_arg1 : IVec S1600000 32) (main_arg2 : IVec S1600000 32) (main_arg3 : FVec F S32x128 .f32) (main_arg4 : FVec F S32 .f32) (main_arg5 : FVec F S32x128 .f32) (main_arg6 : FVec F S7x32 .f32) (main_arg7 : FVec F S7 .f32) (main_arg8 : FVec F S7x32 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S32x128 .f32 := Host.absf main_arg3
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x128 .f32 := Host.absf main_arg5
  let main_cst_4 : FVec F S_ .f32 := constant S_ .f32 0x7F800000#32
  let main_v15 : FVec F S32x128 .f32 := broadcastInDim S32x128 ![] bcast_S_S32x128 main_cst_4
  let main_v16 : IVec S32x128 1 := cmpf .olt main_v14 main_v15
  fn_part1 (F := F) main_arg6 main_arg7 main_arg8 main_v13 main_v16
-- ==== Kernel.lean ====
abbrev S50000x128 : Shape := ⟨2, ![50000, 128]⟩
abbrev S1600000 : Shape := ⟨1, ![1600000]⟩
abbrev S32x128 : Shape := ⟨2, ![32, 128]⟩
abbrev S32 : Shape := ⟨1, ![32]⟩
abbrev S7x32 : Shape := ⟨2, ![7, 32]⟩
abbrev S7 : Shape := ⟨1, ![7]⟩
abbrev S_ : Shape := ⟨0, ![]⟩
abbrev S1600000x1 : Shape := ⟨2, ![1600000, 1]⟩
abbrev S1600000x128 : Shape := ⟨2, ![1600000, 128]⟩
abbrev S50000 : Shape := ⟨1, ![50000]⟩
abbrev S50000x1 : Shape := ⟨2, ![50000, 1]⟩
abbrev S128x32 : Shape := ⟨2, ![128, 32]⟩
abbrev S1x32 : Shape := ⟨2, ![1, 32]⟩
abbrev S50000x32 : Shape := ⟨2, ![50000, 32]⟩
abbrev S2000x128 : Shape := ⟨2, ![2000, 128]⟩
abbrev S2000x32 : Shape := ⟨2, ![2000, 32]⟩
abbrev S2000 : Shape := ⟨1, ![2000]⟩
abbrev S2000x1 : Shape := ⟨2, ![2000, 1]⟩
abbrev S1600000x32 : Shape := ⟨2, ![1600000, 32]⟩
abbrev S32x7 : Shape := ⟨2, ![32, 7]⟩
abbrev S1x7 : Shape := ⟨2, ![1, 7]⟩
abbrev S50000x7 : Shape := ⟨2, ![50000, 7]⟩
abbrev S2000x7 : Shape := ⟨2, ![2000, 7]⟩

abbrev nBuf : Space → Nat
  | .hbm => 70
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S1600000, .i32⟩
  | .hbm, ⟨2, _⟩ => ⟨S1600000, .i32⟩
  | .hbm, ⟨3, _⟩ => ⟨S32x128, .f32⟩
  | .hbm, ⟨4, _⟩ => ⟨S32, .f32⟩
  | .hbm, ⟨5, _⟩ => ⟨S32x128, .f32⟩
  | .hbm, ⟨6, _⟩ => ⟨S7x32, .f32⟩
  | .hbm, ⟨7, _⟩ => ⟨S7, .f32⟩
  | .hbm, ⟨8, _⟩ => ⟨S7x32, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S50000x128, .f32⟩
  | .hbm, ⟨20, _⟩ => ⟨S1600000x1, .i32⟩
  | .hbm, ⟨21, _⟩ => ⟨S50000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S50000, .f32⟩
  | .hbm, ⟨26, _⟩ => ⟨S1600000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S128x32, .f32⟩
  | .hbm, ⟨35, _⟩ => ⟨S128x32, .f32⟩
  | .hbm, ⟨36, _⟩ => ⟨S1x32, .f32⟩
  | .hbm, ⟨37, _⟩ => ⟨S50000x32, .f32⟩
  | .hbm, ⟨38, _⟩ => ⟨S_, .f32⟩
  | .hbm, ⟨39, _⟩ => ⟨S50000x32, .f32⟩
  | .hbm, ⟨40, _⟩ => ⟨S50000x32, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x32, .f32⟩
  | .hbm, ⟨50, _⟩ => ⟨S_, .f32⟩
  | .hbm, ⟨51, _⟩ => ⟨S50000x32, .f32⟩
  | .hbm, ⟨52, _⟩ => ⟨S1600000x1, .i32⟩
  | .hbm, ⟨53, _⟩ => ⟨S50000x32, .f32⟩
  | .hbm, ⟨54, _⟩ => ⟨S_, .f32⟩
  | .hbm, ⟨55, _⟩ => ⟨S1600000, .f32⟩
  | .hbm, ⟨56, _⟩ => ⟨S_, .f32⟩
  | .hbm, ⟨57, _⟩ => ⟨S50000, .f32⟩
  | .hbm, ⟨58, _⟩ => ⟨S1600000x1, .i32⟩
  | .hbm, ⟨59, _⟩ => ⟨S50000, .f32⟩
  | .hbm, ⟨60, _⟩ => ⟨S_, .f32⟩
  | .hbm, ⟨61, _⟩ => ⟨S50000, .f32⟩
  | .hbm, ⟨62, _⟩ => ⟨S50000, .f32⟩
  | .hbm, ⟨63, _⟩ => ⟨S50000x1, .f32⟩
  | .hbm, ⟨64, _⟩ => ⟨S50000x32, .f32⟩
  | .hbm, ⟨65, _⟩ => ⟨S50000x32, .f32⟩
  | .hbm, ⟨66, _⟩ => ⟨S32x7, .f32⟩
  | .hbm, ⟨67, _⟩ => ⟨S32x7, .f32⟩
  | .hbm, ⟨68, _⟩ => ⟨S1x7, .f32⟩
  | .hbm, ⟨69, _⟩ => ⟨S50000x7, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x32, .f32⟩
  | .local _ .vmem, ⟨5, _⟩ => ⟨S128x32, .f32⟩
  | .local _ .vmem, ⟨6, _⟩ => ⟨S1x32, .f32⟩
  | .local _ .vmem, ⟨7, _⟩ => ⟨S2000x32, .f32⟩
  | .local _ .vmem, ⟨8, _⟩ => ⟨S2000x32, .f32⟩
  | .local _ .vmem, ⟨9, _⟩ => ⟨S2000x32, .f32⟩
  | .local _ .vmem, ⟨10, _⟩ => ⟨S2000x32, .f32⟩
  | .local _ .vmem, ⟨11, _⟩ => ⟨S2000x32, .f32⟩
  | .local _ .vmem, ⟨12, _⟩ => ⟨S2000x32, .f32⟩
  | .local _ .vmem, ⟨13, _⟩ => ⟨S32x7, .f32⟩
  | .local _ .vmem, ⟨14, _⟩ => ⟨S32x7, .f32⟩
  | .local _ .vmem, ⟨15, _⟩ => ⟨S1x7, .f32⟩
  | .local _ .vmem, ⟨16, _⟩ => ⟨S2000x7, .f32⟩
  | .local _ .vmem, ⟨17, _⟩ => ⟨S2000x7, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_cst_9 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_10 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x7 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x7 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x7 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x7 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S32x128_S128x32_1_0 : S32x128.Transposes [1, 0] S128x32
  shapeCasts_S32_S1x32 : S32.ShapeCasts S1x32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  reduces_S2000x32_S2000 : S2000x32.Reduces [1] S2000
  shapeCasts_S2000_S2000x1 : S2000.ShapeCasts S2000x1
  broadcasts_S2000x1_S2000x32 : S2000x1.Broadcasts S2000x32
  inb_S2000x32_S2000x32_0_0 : ∀ a, (![0, 0] : Fin 2 → Nat) a + S2000x32.size a ≤ S2000x32.size a
  h_S2000x32 : 0 < S2000x32.numel
  bcast_S_S50000x32 : S_.BroadcastsInDim S50000x32 (![] : Fin 0 → Fin S50000x32.rank)
  bcast_S50000x1_S50000x32_0_1 : S50000x1.BroadcastsInDim S50000x32 (![0, 1] : Fin 2 → Fin S50000x32.rank)
  transposes_S7x32_S32x7_1_0 : S7x32.Transposes [1, 0] S32x7
  shapeCasts_S7_S1x7 : S7.ShapeCasts S1x7
  shapeCasts_S2000x32_S2000x32 : S2000x32.ShapeCasts S2000x32
  inb_S32x7_S32x7_0_0 : ∀ a, (![0, 0] : Fin 2 → Nat) a + S32x7.size a ≤ S32x7.size a
  h_S32x7 : 0 < S32x7.numel
  shapeCasts_S32x7_S32x7 : S32x7.ShapeCasts S32x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S2000x7 : S1x7.Broadcasts S2000x7
  reduces_S2000x7_S2000 : S2000x7.Reduces [1] S2000
  broadcasts_S2000x1_S2000x7 : S2000x1.Broadcasts S2000x7
  inb_S2000x7_S2000x7_0_0 : ∀ a, (![0, 0] : Fin 2 → Nat) a + S2000x7.size a ≤ S2000x7.size a
  h_S2000x7 : 0 < S2000x7.numel
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  dot_S2000x128_S128x32_S2000x32_1_0_0_1_n_n_wf : DotDims.WF S2000x128 S128x32 S2000x32 [1] [0] [0] [1] [] []
  gather_S50000x32_S1600000x1_S1600000x32_1_0_n_n_0_1_132_wf : GatherDims.WF S50000x32 S1600000x1 S1600000x32 [1] [0] [] [0] [] 1 ![1, 32]
  scatter_S50000x32_S1600000x1_S1600000x32_1_0_0_1_wf : ScatterDims.WF S50000x32 S1600000x1 S1600000x32 [1] [0] [0] 1
  dot_S2000x32_S32x7_S2000x7_1_0_0_1_n_n_wf : DotDims.WF S2000x32 S32x7 S2000x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x32.size a ≤ S128x32.size a
  hwx0_3 : ∀ i : grid0.Coords, EltTy.bits .f32 = 32 ∨ (Rect.block (s := S128x32) S128x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x32.size a ≤ S50000x32.size a
  hwx0_5 : ∀ i : grid0.Coords, EltTy.bits .f32 = 32 ∨ (Rect.block (s := S50000x32) S2000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S50000x32.size a
  hwx1_0 : ∀ i : grid1.Coords, EltTy.bits .f32 = 32 ∨ (Rect.block (s := S50000x32) S2000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x32.size a ≤ S50000x32.size a
  hwx1_1 : ∀ i : grid1.Coords, EltTy.bits .f32 = 32 ∨ (Rect.block (s := S50000x32) S2000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x7.size a ≤ S32x7.size a
  hwx1_2 : ∀ i : grid1.Coords, EltTy.bits .f32 = 32 ∨ (Rect.block (s := S32x7) S32x7.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x7.size a ≤ S32x7.size a
  hwx1_3 : ∀ i : grid1.Coords, EltTy.bits .f32 = 32 ∨ (Rect.block (s := S32x7) S32x7.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x7.size a ≤ S1x7.size a
  hwx1_4 : ∀ i : grid1.Coords, EltTy.bits .f32 = 32 ∨ (Rect.block (s := S1x7) S1x7.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x7.size a ≤ S50000x7.size a
  hwx1_5 : ∀ i : grid1.Coords, EltTy.bits .f32 = 32 ∨ (Rect.block (s := S50000x7) S2000x7.size (cc1_transform_5 i) (hinb1_5 i)).WholeWords (EltTy.packing .f32)

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S2000x128_S128x32_S2000x32_1_0_0_1_n_n : DotDims S2000x128 S128x32 S2000x32 where
  lhsContracting := [1]
  rhsContracting := [0]
  lhsNonContracting := [0]
  rhsNonContracting := [1]
  lhsBatch := []
  rhsBatch := []
  wf := dot_S2000x128_S128x32_S2000x32_1_0_0_1_n_n_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def dot_S2000x32_S32x7_S2000x7_1_0_0_1_n_n : DotDims S2000x32 S32x7 S2000x7 where
  lhsContracting := [1]
  rhsContracting := [0]
  lhsNonContracting := [0]
  rhsNonContracting := [1]
  lhsBatch := []
  rhsBatch := []
  wf := dot_S2000x32_S32x7_S2000x7_1_0_0_1_n_n_wf

abbrev win0_0 : Pipeline.Window sig grid0 :=
  Pipeline.Window.ofSpec (Memref.whole main_v18) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S2000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S32x7.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S32x7.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S1x7.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S2000x7.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S1600000 : Shape := ⟨1, ![1600000]⟩
abbrev S32x128 : Shape := ⟨2, ![32, 128]⟩
abbrev S32 : Shape := ⟨1, ![32]⟩
abbrev S7x32 : Shape := ⟨2, ![7, 32]⟩
abbrev S7 : Shape := ⟨1, ![7]⟩
abbrev S_ : Shape := ⟨0, ![]⟩
abbrev S1600000x1 : Shape := ⟨2, ![1600000, 1]⟩
abbrev S1600000x128 : Shape := ⟨2, ![1600000, 128]⟩
abbrev S50000 : Shape := ⟨1, ![50000]⟩
abbrev S50000x1 : Shape := ⟨2, ![50000, 1]⟩
abbrev S128x32 : Shape := ⟨2, ![128, 32]⟩
abbrev S50000x32 : Shape := ⟨2, ![50000, 32]⟩
abbrev S1x32 : Shape := ⟨2, ![1, 32]⟩
abbrev S1600000x32 : Shape := ⟨2, ![1600000, 32]⟩
abbrev S32x7 : Shape := ⟨2, ![32, 7]⟩
abbrev S50000x7 : Shape := ⟨2, ![50000, 7]⟩
abbrev S1x7 : Shape := ⟨2, ![1, 7]⟩

abbrev nBuf : Space → Nat
  | .hbm => 113
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S1600000, .i32⟩
  | .hbm, ⟨2, _⟩ => ⟨S1600000, .i32⟩
  | .hbm, ⟨3, _⟩ => ⟨S32x128, .f32⟩
  | .hbm, ⟨4, _⟩ => ⟨S32, .f32⟩
  | .hbm, ⟨5, _⟩ => ⟨S32x128, .f32⟩
  | .hbm, ⟨6, _⟩ => ⟨S7x32, .f32⟩
  | .hbm, ⟨7, _⟩ => ⟨S7, .f32⟩
  | .hbm, ⟨8, _⟩ => ⟨S7x32, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S50000x128, .f32⟩
  | .hbm, ⟨20, _⟩ => ⟨S1600000x1, .i32⟩
  | .hbm, ⟨21, _⟩ => ⟨S50000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S50000, .f32⟩
  | .hbm, ⟨26, _⟩ => ⟨S1600000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S128x32, .f32⟩
  | .hbm, ⟨35, _⟩ => ⟨S50000x32, .f32⟩
  | .hbm, ⟨36, _⟩ => ⟨S1x32, .f32⟩
  | .hbm, ⟨37, _⟩ => ⟨S50000x32, .f32⟩
  | .hbm, ⟨38, _⟩ => ⟨S50000x32, .f32⟩
  | .hbm, ⟨39, _⟩ => ⟨S128x32, .f32⟩
  | .hbm, ⟨40, _⟩ => ⟨S50000x32, .f32⟩
  | .hbm, ⟨41, _⟩ => ⟨S50000x32, .f32⟩
  | .hbm, ⟨42, _⟩ => ⟨S50000x32, .f32⟩
  | .hbm, ⟨43, _⟩ => ⟨S_, .f32⟩
  | .hbm, ⟨44, _⟩ => ⟨S50000, .f32⟩
  | .hbm, ⟨45, _⟩ => ⟨S50000x1, .f32⟩
  | .hbm, ⟨46, _⟩ => ⟨S50000x1, .f32⟩
  | .hbm, ⟨47, _⟩ => ⟨S_, .f32⟩
  | .hbm, ⟨48, _⟩ => ⟨S50000x1, .f32⟩
  | .hbm, ⟨49, _⟩ => ⟨S50000x1, .f32⟩
  | .hbm, ⟨50, _⟩ => ⟨S50000x32, .f32⟩
  | .hbm, ⟨51, _⟩ => ⟨S50000x32, .f32⟩
  | .hbm, ⟨52, _⟩ => ⟨S_, .f32⟩
  | .hbm, ⟨53, _⟩ => ⟨S50000x32, .f32⟩
  | .hbm, ⟨54, _⟩ => ⟨S50000x32, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x32, .f32⟩
  | .hbm, ⟨64, _⟩ => ⟨S_, .f32⟩
  | .hbm, ⟨65, _⟩ => ⟨S50000x32, .f32⟩
  | .hbm, ⟨66, _⟩ => ⟨S1600000x1, .i32⟩
  | .hbm, ⟨67, _⟩ => ⟨S50000x32, .f32⟩
  | .hbm, ⟨68, _⟩ => ⟨S_, .f32⟩
  | .hbm, ⟨69, _⟩ => ⟨S1600000, .f32⟩
  | .hbm, ⟨70, _⟩ => ⟨S_, .f32⟩
  | .hbm, ⟨71, _⟩ => ⟨S50000, .f32⟩
  | .hbm, ⟨72, _⟩ => ⟨S1600000x1, .i32⟩
  | .hbm, ⟨73, _⟩ => ⟨S50000, .f32⟩
  | .hbm, ⟨74, _⟩ => ⟨S_, .f32⟩
  | .hbm, ⟨75, _⟩ => ⟨S50000, .f32⟩
  | .hbm, ⟨76, _⟩ => ⟨S50000, .f32⟩
  | .hbm, ⟨77, _⟩ => ⟨S50000x1, .f32⟩
  | .hbm, ⟨78, _⟩ => ⟨S50000x32, .f32⟩
  | .hbm, ⟨79, _⟩ => ⟨S50000x32, .f32⟩
  | .hbm, ⟨80, _⟩ => ⟨S32x7, .f32⟩
  | .hbm, ⟨81, _⟩ => ⟨S50000x7, .f32⟩
  | .hbm, ⟨82, _⟩ => ⟨S1x7, .f32⟩
  | .hbm, ⟨83, _⟩ => ⟨S50000x7, .f32⟩
  | .hbm, ⟨84, _⟩ => ⟨S50000x7, .f32⟩
  | .hbm, ⟨85, _⟩ => ⟨S32x7, .f32⟩
  | .hbm, ⟨86, _⟩ => ⟨S50000x7, .f32⟩
  | .hbm, ⟨87, _⟩ => ⟨S50000x7, .f32⟩
  | .hbm, ⟨88, _⟩ => ⟨S50000x7, .f32⟩
  | .hbm, ⟨89, _⟩ => ⟨S_, .f32⟩
  | .hbm, ⟨90, _⟩ => ⟨S50000, .f32⟩
  | .hbm, ⟨91, _⟩ => ⟨S50000x1, .f32⟩
  | .hbm, ⟨92, _⟩ => ⟨S50000x1, .f32⟩
  | .hbm, ⟨93, _⟩ => ⟨S_, .f32⟩
  | .hbm, ⟨94, _⟩ => ⟨S50000x1, .f32⟩
  | .hbm, ⟨95, _⟩ => ⟨S50000x1, .f32⟩
  | .hbm, ⟨96, _⟩ => ⟨S50000x7, .f32⟩
  | .hbm, ⟨97, _⟩ => ⟨S50000x7, .f32⟩
  | .hbm, ⟨98, _⟩ => ⟨S_, .f32⟩
  | .hbm, ⟨99, _⟩ => ⟨S50000, .f32⟩
  | .hbm, ⟨100, _⟩ => ⟨S_, .f32⟩
  | .hbm, ⟨101, _⟩ => ⟨S50000, .f32⟩
  | .hbm, ⟨102, _⟩ => ⟨S50000, .f32⟩
  | .hbm, ⟨103, _⟩ => ⟨S50000x1, .f32⟩
  | .hbm, ⟨104, _⟩ => ⟨S50000x7, .f32⟩
  | .hbm, ⟨105, _⟩ => ⟨S50000x7, .f32⟩
  | .hbm, ⟨106, _⟩ => ⟨S50000x7, .f32⟩
  | .hbm, ⟨107, _⟩ => ⟨S_, .f32⟩
  | .hbm, ⟨108, _⟩ => ⟨S50000, .f32⟩
  | .hbm, ⟨109, _⟩ => ⟨S50000x1, .f32⟩
  | .hbm, ⟨110, _⟩ => ⟨S50000x1, .f32⟩
  | .hbm, ⟨111, _⟩ => ⟨S50000x7, .f32⟩
  | .hbm, ⟨112, _⟩ => ⟨S50000x7, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call0_v0 : Ref sig .tc := ⟨.hbm, 42, rfl⟩
abbrev main_call0_cst : Ref sig .tc := ⟨.hbm, 43, rfl⟩
abbrev main_call0_v1 : Ref sig .tc := ⟨.hbm, 44, rfl⟩
abbrev main_call0_v2 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_call1_cst : Ref sig .tc := ⟨.hbm, 52, rfl⟩
abbrev main_call1_v0 : Ref sig .tc := ⟨.hbm, 53, rfl⟩
abbrev main_v32 : Ref sig .tc := ⟨.hbm, 54, rfl⟩
abbrev main_c_5 : Ref sig .tc := ⟨.hbm, 55, rfl⟩
abbrev main_v33 : Ref sig .tc := ⟨.hbm, 56, rfl⟩
abbrev main_v34 : Ref sig .tc := ⟨.hbm, 57, rfl⟩
abbrev main_c_6 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_cst_9 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_10 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_call2_v0 : Ref sig .tc := ⟨.hbm, 88, rfl⟩
abbrev main_call2_cst : Ref sig .tc := ⟨.hbm, 89, rfl⟩
abbrev main_call2_v1 : Ref sig .tc := ⟨.hbm, 90, rfl⟩
abbrev main_call2_v2 : Ref sig .tc := ⟨.hbm, 91, rfl⟩
abbrev main_v60 : Ref sig .tc := ⟨.hbm, 92, rfl⟩
abbrev main_cst_11 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_call3_cst : Ref sig .tc := ⟨.hbm, 98, rfl⟩
abbrev main_call3_v0 : Ref sig .tc := ⟨.hbm, 99, rfl⟩
abbrev main_call3_cst_0 : Ref sig .tc := ⟨.hbm, 100, rfl⟩
abbrev main_call3_v1 : Ref sig .tc := ⟨.hbm, 101, rfl⟩
abbrev main_call3_v2 : Ref sig .tc := ⟨.hbm, 102, rfl⟩
abbrev main_call3_v3 : Ref sig .tc := ⟨.hbm, 103, rfl⟩
abbrev main_call3_v4 : Ref sig .tc := ⟨.hbm, 104, rfl⟩
abbrev main_call3_v5 : Ref sig .tc := ⟨.hbm, 105, rfl⟩
abbrev main_call3_v6 : Ref sig .tc := ⟨.hbm, 106, rfl⟩
abbrev main_call3_cst_1 : Ref sig .tc := ⟨.hbm, 107, rfl⟩
abbrev main_call3_v7 : Ref sig .tc := ⟨.hbm, 108, rfl⟩
abbrev main_call3_v8 : Ref sig .tc := ⟨.hbm, 109, rfl⟩
abbrev main_call3_v9 : Ref sig .tc := ⟨.hbm, 110, rfl⟩
abbrev main_call3_v10 : Ref sig .tc := ⟨.hbm, 111, rfl⟩
abbrev main_v65 : Ref sig .tc := ⟨.hbm, 112, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S32x128_S128x32_1_0 : S32x128.Transposes [1, 0] S128x32
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  reducesTo_S50000x32_S50000_d1 : S50000x32.ReducesTo [1] S50000
  h_S_ : 0 < S_.numel
  bcast_S_S50000x1 : S_.BroadcastsInDim S50000x1 (![] : Fin 0 → Fin S50000x1.rank)
  bcast_S50000x1_S50000x32_0_1 : S50000x1.BroadcastsInDim S50000x32 (![0, 1] : Fin 2 → Fin S50000x32.rank)
  bcast_S_S50000x32 : S_.BroadcastsInDim S50000x32 (![] : Fin 0 → Fin S50000x32.rank)
  transposes_S7x32_S32x7_1_0 : S7x32.Transposes [1, 0] S32x7
  bcast_S7_S1x7_1 : S7.BroadcastsInDim S1x7 (![1] : Fin 1 → Fin S1x7.rank)
  bcast_S1x7_S50000x7_0_1 : S1x7.BroadcastsInDim S50000x7 (![0, 1] : Fin 2 → Fin S50000x7.rank)
  reducesTo_S50000x7_S50000_d1 : S50000x7.ReducesTo [1] S50000
  bcast_S50000x1_S50000x7_0_1 : S50000x1.BroadcastsInDim S50000x7 (![0, 1] : Fin 2 → Fin S50000x7.rank)
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  dot_S50000x128_S128x32_S50000x32_1_0_0_1_n_n_wf : DotDims.WF S50000x128 S128x32 S50000x32 [1] [0] [0] [1] [] []
  gather_S50000x32_S1600000x1_S1600000x32_1_0_n_n_0_1_132_wf : GatherDims.WF S50000x32 S1600000x1 S1600000x32 [1] [0] [] [0] [] 1 ![1, 32]
  scatter_S50000x32_S1600000x1_S1600000x32_1_0_0_1_wf : ScatterDims.WF S50000x32 S1600000x1 S1600000x32 [1] [0] [0] 1
  dot_S50000x32_S32x7_S50000x7_1_0_0_1_n_n_wf : DotDims.WF S50000x32 S32x7 S50000x7 [1] [0] [0] [1] [] []

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def dot_S50000x32_S32x7_S50000x7_1_0_0_1_n_n : DotDims S50000x32 S32x7 S50000x7 where
  lhsContracting := [1]
  rhsContracting := [0]
  lhsNonContracting := [0]
  rhsNonContracting := [1]
  lhsBatch := []
  rhsBatch := []
  wf := dot_S50000x32_S32x7_S50000x7_1_0_0_1_n_n_wf

class Facts : Prop extends Facts₀ where

variable [Facts]
-- ==== Proof.KernelHost.lean ====
/-
  The host operations around the two pallas_calls, read as functions. Before the first call the host computes the
  neighbourhood mean of the feature rows, the two transposed weight matrices and the bias as a one-row array; between
  the calls it rectifies the first call's result, takes its neighbourhood mean, and prepares the second layer's weights
  and bias the same way. Each window's array at its region's entry is named here as such a function of the launch
  contents (first region) or of the contents the first region leaves (second region).
-/
import proofs.«173884_j83356725281380_1_alg».proof.Proof.Gen.KernelIdeal.Frame
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

variable {F : FTy → Type} [FloatOps F]

/-- The mean over each node's incoming edges of the source rows of a [50000, 128] table: the rows gathered at the source ids (a negative id counted from the end), added into the destination ids' rows, each row divided by the larger of its in-degree and one. -/
def meanA (x : (⟨S50000x128, .f32⟩ : BufTy).Contents (Elt F)) (x1 x2 : (⟨S1600000, .i32⟩ : BufTy).Contents (Elt F)) : (⟨S50000x128, .f32⟩ : BufTy).Contents (Elt F) :=
  Host.divf (F := F)
    (Host.scatterAdd (F := F) scatter_S50000x128_S1600000x1_S1600000x128_1_0_0_1
      (broadcastInDim S50000x128 ![] bcast_S_S50000x128 (constant (F := F) S_ .f32 0x00000000#32))
      (broadcastInDim S1600000x1 ![0] bcast_S1600000_S1600000x1_0 x2)
      (Host.gather gather_S50000x128_S1600000x1_S1600000x128_1_0_n_n_0_1_1128 x
        (broadcastInDim S1600000x1 ![0] bcast_S1600000_S1600000x1_0
          (select (cmpi .slt x1 (broadcastInDim S1600000 ![] bcast_S_S1600000 (constantI S_ 32 0#32)))
                  (addi x1 (broadcastInDim S1600000 ![] bcast_S_S1600000 (constantI S_ 32 50000#32))) x1))))
    (broadcastInDim S50000x128 ![0, 1] bcast_S50000x1_S50000x128_0_1
      (broadcastInDim S50000x1 ![0] bcast_S50000_S50000x1_0
        (maximumf (F := F)
          (Host.scatterAdd (F := F) scatter_S50000_S1600000x1_S1600000_n_0_0_1
            (broadcastInDim S50000 ![] bcast_S_S50000 (constant (F := F) S_ .f32 0x00000000#32))
            (broadcastInDim S1600000x1 ![0] bcast_S1600000_S1600000x1_0 x2)
            (broadcastInDim S1600000 ![] bcast_S_S1600000 (constant (F := F) S_ .f32 0x3F800000#32)))
          (broadcastInDim S50000 ![] bcast_S_S50000 (constant (F := F) S_ .f32 0x3F800000#32)))))

/-- The same mean over a [50000, 32] table. -/
def meanB (x : (⟨S50000x32, .f32⟩ : BufTy).Contents (Elt F)) (x1 x2 : (⟨S1600000, .i32⟩ : BufTy).Contents (Elt F)) : (⟨S50000x32, .f32⟩ : BufTy).Contents (Elt F) :=
  Host.divf (F := F)
    (Host.scatterAdd (F := F) scatter_S50000x32_S1600000x1_S1600000x32_1_0_0_1
      (broadcastInDim S50000x32 ![] bcast_S_S50000x32 (constant (F := F) S_ .f32 0x00000000#32))
      (broadcastInDim S1600000x1 ![0] bcast_S1600000_S1600000x1_0 x2)
      (Host.gather gather_S50000x32_S1600000x1_S1600000x32_1_0_n_n_0_1_132 x
        (broadcastInDim S1600000x1 ![0] bcast_S1600000_S1600000x1_0
          (select (cmpi .slt x1 (broadcastInDim S1600000 ![] bcast_S_S1600000 (constantI S_ 32 0#32)))
                  (addi x1 (broadcastInDim S1600000 ![] bcast_S_S1600000 (constantI S_ 32 50000#32))) x1))))
    (broadcastInDim S50000x32 ![0, 1] bcast_S50000x1_S50000x32_0_1
      (broadcastInDim S50000x1 ![0] bcast_S50000_S50000x1_0
        (maximumf (F := F)
          (Host.scatterAdd (F := F) scatter_S50000_S1600000x1_S1600000_n_0_0_1
            (broadcastInDim S50000 ![] bcast_S_S50000 (constant (F := F) S_ .f32 0x00000000#32))
            (broadcastInDim S1600000x1 ![0] bcast_S1600000_S1600000x1_0 x2)
            (broadcastInDim S1600000 ![] bcast_S_S1600000 (constant (F := F) S_ .f32 0x3F800000#32)))
          (broadcastInDim S50000 ![] bcast_S_S50000 (constant (F := F) S_ .f32 0x3F800000#32)))))

/-- The rectifier of a [50000, 32] table. -/
def relu32 (E : (⟨S50000x32, .f32⟩ : BufTy).Contents (Elt F)) : (⟨S50000x32, .f32⟩ : BufTy).Contents (Elt F) :=
  maximumf (F := F) E (broadcastInDim S50000x32 ![] bcast_S_S50000x32 (constant (F := F) S_ .f32 0x00000000#32))

variable (m : (ℓ : Loc nD τ sig) → Buf (Elt F) ℓ) (ρ : Dev nD → PrngReg)

/-! ## The first region's arrays at its entry -/

set_option maxHeartbeats 4000000 in
theorem entry0_mean (c : Dev nD) : W1 m ρ c (Proc.devRef .tc main_v18) = meanA (m ((c.tc : Thread nD τ).loc main_arg0)) (m ((c.tc : Thread nD τ).loc main_arg1)) (m ((c.tc : Thread nD τ).loc main_arg2)) := by
  dsimp only [W1, hostOps0]; after_results_simp <;> rfl
theorem entry0_x (c : Dev nD) : W1 m ρ c (Proc.devRef .tc main_arg0) = (m ((c.tc : Thread nD τ).loc main_arg0)) := by
  dsimp only [W1, hostOps0]; after_results_simp <;> rfl
theorem entry0_wl (c : Dev nD) : W1 m ρ c (Proc.devRef .tc main_v19) = transpose S128x32 [1, 0] (m ((c.tc : Thread nD τ).loc main_arg3)) transposes_S32x128_S128x32_1_0 := by
  dsimp only [W1, hostOps0]; after_results_simp <;> rfl
theorem entry0_wr (c : Dev nD) : W1 m ρ c (Proc.devRef .tc main_v20) = transpose S128x32 [1, 0] (m ((c.tc : Thread nD τ).loc main_arg5)) transposes_S32x128_S128x32_1_0 := by
  dsimp only [W1, hostOps0]; after_results_simp <;> rfl
theorem entry0_b (c : Dev nD) : W1 m ρ c (Proc.devRef .tc main_v21) = shapeCast S1x32 (m ((c.tc : Thread nD τ).loc main_arg4)) shapeCasts_S32_S1x32 := by
  dsimp only [W1, hostOps0]; after_results_simp <;> rfl

/-! ## What the first region leaves of the arguments the host reads again -/

theorem mid_arg1 (c : Dev nD) : W2 m ρ c (Proc.devRef .tc main_arg1) = (m ((c.tc : Thread nD τ).loc main_arg1)) :=
  (W2_of_ne m ρ c main_arg1 (by decide)).trans (by dsimp only [W1, hostOps0]; after_results_simp <;> rfl)
theorem mid_arg2 (c : Dev nD) : W2 m ρ c (Proc.devRef .tc main_arg2) = (m ((c.tc : Thread nD τ).loc main_arg2)) :=
  (W2_of_ne m ρ c main_arg2 (by decide)).trans (by dsimp only [W1, hostOps0]; after_results_simp <;> rfl)
theorem mid_arg6 (c : Dev nD) : W2 m ρ c (Proc.devRef .tc main_arg6) = (m ((c.tc : Thread nD τ).loc main_arg6)) :=
  (W2_of_ne m ρ c main_arg6 (by decide)).trans (by dsimp only [W1, hostOps0]; after_results_simp <;> rfl)
theorem mid_arg7 (c : Dev nD) : W2 m ρ c (Proc.devRef .tc main_arg7) = (m ((c.tc : Thread nD τ).loc main_arg7)) :=
  (W2_of_ne m ρ c main_arg7 (by decide)).trans (by dsimp only [W1, hostOps0]; after_results_simp <;> rfl)
theorem mid_arg8 (c : Dev nD) : W2 m ρ c (Proc.devRef .tc main_arg8) = (m ((c.tc : Thread nD τ).loc main_arg8)) :=
  (W2_of_ne m ρ c main_arg8 (by decide)).trans (by dsimp only [W1, hostOps0]; after_results_simp <;> rfl)

/-! ## The second region's arrays at its entry -/

set_option maxHeartbeats 4000000 in
theorem entry1_mean (c : Dev nD) : W3 m ρ c (Proc.devRef .tc main_v43) = meanB (relu32 (W2 m ρ c (Proc.devRef .tc main_v22))) (W2 m ρ c (Proc.devRef .tc main_arg1)) (W2 m ρ c (Proc.devRef .tc main_arg2)) := by
  dsimp only [W3, hostOps1]; after_results_simp <;> rfl
theorem entry1_x (c : Dev nD) : W3 m ρ c (Proc.devRef .tc main_v24) = relu32 (W2 m ρ c (Proc.devRef .tc main_v22)) := by
  dsimp only [W3, hostOps1]; after_results_simp <;> rfl
theorem entry1_wl (c : Dev nD) : W3 m ρ c (Proc.devRef .tc main_v44) = transpose S32x7 [1, 0] (W2 m ρ c (Proc.devRef .tc main_arg6)) transposes_S7x32_S32x7_1_0 := by
  dsimp only [W3, hostOps1]; after_results_simp <;> rfl
theorem entry1_wr (c : Dev nD) : W3 m ρ c (Proc.devRef .tc main_v45) = transpose S32x7 [1, 0] (W2 m ρ c (Proc.devRef .tc main_arg8)) transposes_S7x32_S32x7_1_0 := by
  dsimp only [W3, hostOps1]; after_results_simp <;> rfl
theorem entry1_b (c : Dev nD) : W3 m ρ c (Proc.devRef .tc main_v46) = shapeCast S1x7 (W2 m ρ c (Proc.devRef .tc main_arg7)) shapeCasts_S7_S1x7 := by
  dsimp only [W3, hostOps1]; after_results_simp <;> rfl

/-- The first result's buffer is not touched after the first region. -/
theorem out0_kept (c : Dev nD) : W4 m ρ c (Proc.devRef .tc main_v22) = W2 m ρ c (Proc.devRef .tc main_v22) :=
  (W4_of_ne m ρ c main_v22 (by decide)).trans (by dsimp only [W3, hostOps1]; after_results_simp <;> rfl)

end Cert.KernelIdeal.HostSide

end
-- ==== Proof.LibPlainProduct.lean ====
/-
  A matrix product with one contracted axis, read at an entry over the extended reals: the kernel's product into a
  zero accumulator and the host's product are both the plain sum, over the contracted coordinate, of the left
  operand's row entry times the right operand's column entry — whatever formats the operands carry.
-/
import Idealize.ShloMosaic.Lib.ValueIdx
import Idealize.ShloMosaic.PureOps.Ideal.Laws

namespace Cert.PlainProduct

open Idealize.ShloMosaic Idealize.ShloMosaic.ValueIdx

variable {M K N : ℕ}

/-- The left operand is read at the output's row … -/
theorem lhs_row (j : (⟨2, ![M, N]⟩ : Shape).Idx) (q : (DotDims.plain M K N).contr.Idx) :
    ((DotDims.plain M K N).lhsIdx j q 0).val = (j 0).val := rfl
/-- … and the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate … -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the output's column. -/
theorem rhs_col (j : (⟨2, ![M, N]⟩ : Shape).Idx) (q : (DotDims.plain M K N).contr.Idx) :
    ((DotDims.plain M K N).rhsIdx j q 1).val = (j 1).val := rfl

/-- The sum over the contraction's index set is the sum over the K values of its one coordinate. -/
theorem sum_contr {φ₁ φ₂ : FTy} (lhs : FVec Ideal ⟨2, ![M, K]⟩ φ₁) (rhs : FVec Ideal ⟨2, ![K, N]⟩ φ₂) (p : Fin M) (q : Fin N) :
    (∑ k : (DotDims.plain M K N).contr.Idx,
        lhs ((DotDims.plain M K N).lhsIdx (ix2 p q) k) * rhs ((DotDims.plain M K N).rhsIdx (ix2 p q) k))
      = ∑ x : Fin K, lhs (ix2 p x) * rhs (ix2 x q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- The kernel's product into the zero accumulator, at (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) :=
  (Ideal.matmul_constant_zero_apply (DotDims.plain M K N) prec lhs rhs (ix2 p q)).trans (sum_contr lhs rhs p q)

/-- The host's product, at (p, q). -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q)
      = ∑ x : Fin K, lhs (ix2 p x) * rhs (ix2 x q) := by
  simp only [Host.dotGeneral]
  exact (Ideal.dotGeneral_apply (DotDims.plain M K N) prec _ lhs rhs (ix2 p q)).trans (sum_contr lhs rhs p q)

/-- The product of an [M, K] array by a [K, N] array as one array: entry (p, q) is the sum over x of lhs (p, x) · rhs (x, q). -/
noncomputable def prod {φ₁ φ₂ : FTy} (lhs : FVec Ideal ⟨2, ![M, K]⟩ φ₁) (rhs : FVec Ideal ⟨2, ![K, N]⟩ φ₂) :
    FVec Ideal ⟨2, ![M, N]⟩ .f32 :=
  fun i => ∑ x : Fin K, lhs (ix2 (i 0) x) * rhs (ix2 x (i 1))

theorem prod_apply {φ₁ φ₂ : FTy} (lhs : FVec Ideal ⟨2, ![M, K]⟩ φ₁) (rhs : FVec Ideal ⟨2, ![K, N]⟩ φ₂) (p : Fin M) (q : Fin N) :
    prod lhs rhs (ix2 p q) = ∑ x : Fin K, lhs (ix2 p x) * rhs (ix2 x q) := rfl

/-- The host's product is that array. -/
theorem dotGeneral_eq_prod {φ₁ φ₂ : FTy} (prec : Option ContractPrecision)
    (lhs : FVec Ideal ⟨2, ![M, K]⟩ φ₁) (rhs : FVec Ideal ⟨2, ![K, N]⟩ φ₂) :
    Host.dotGeneral (F := Ideal) (DotDims.plain M K N) prec lhs rhs = prod lhs rhs := by
  funext i
  obtain ⟨p, q, rfl⟩ : ∃ (p : Fin M) (q : Fin N), i = ix2 p q := ⟨i 0, i 1, eq_ix2 i⟩
  exact dotGeneral_apply prec lhs rhs p q

end Cert.PlainProduct
-- ==== Proof.LibLinearLayer.lean ====
/-
  One graph-convolution layer over the extended reals. For node features X and their neighbourhood means A (both
  R × K), weights Wl, Wr (K × N) and a bias b (N), the layer's linear part at (r, c) is

      Σ_k A(r,k)·Wl(k,c) + Σ_k X(r,k)·Wr(k,c) + b(c).

  The kernel's tile computes it in this order (both products, then the bias); the host form adds the bias to the
  first product before the second. Addition of extended reals is commutative and associative, so the two agree
  at every entry, whatever the entries are — no finiteness is used.
-/
import proofs.«173884_j83356725281380_1_alg».proof.Proof.LibPlainProduct
import Idealize.ShloMosaic.Lib.ValueIdx
import Idealize.ShloMosaic.Lib.ValueLayout
import Idealize.ShloMosaic.Lib.Pipeline.Value
import Idealize.ShloMosaic.PureOps.Ideal.Laws

noncomputable section

namespace Cert.Sage

open Idealize.ShloMosaic Idealize.ShloMosaic.ValueIdx

variable {R K N : ℕ}

/-- The linear part of a layer at row `p`, column `q`: both products summed, then the bias. -/
def linAt (A X : FVec Ideal ⟨2, ![R, K]⟩ .f32) (Wl Wr : FVec Ideal ⟨2, ![K, N]⟩ .f32) (b : Fin N → EReal)
    (p : Fin R) (q : Fin N) : EReal :=
  (∑ k : Fin K, A (ix2 p k) * Wl (ix2 k q) + ∑ k : Fin K, X (ix2 p k) * Wr (ix2 k q)) + b q

/-- The linear part of a layer as one array (the bias given as a function of the column). -/
def lin (A X : FVec Ideal ⟨2, ![R, K]⟩ .f32) (Wl Wr : FVec Ideal ⟨2, ![K, N]⟩ .f32) (b : Fin N → EReal) :
    FVec Ideal ⟨2, ![R, N]⟩ .f32 :=
  fun i => linAt A X Wl Wr b (i 0) (i 1)

theorem lin_apply (A X : FVec Ideal ⟨2, ![R, K]⟩ .f32) (Wl Wr : FVec Ideal ⟨2, ![K, N]⟩ .f32) (b : Fin N → EReal)
    (p : Fin R) (q : Fin N) : lin A X Wl Wr b (ix2 p q) = linAt A X Wl Wr b p q := rfl

/-- The rectifier: the maximum with the zero word's value, entry by entry. -/
def relu {S : Shape} (Y : FVec Ideal S .f32) : FVec Ideal S .f32 :=
  fun i => max (Y i) (Ideal.ofBits .f32 0x00000000#32)

theorem relu_apply {S : Shape} (Y : FVec Ideal S .f32) (i : S.Idx) :
    relu Y i = max (Y i) (Ideal.ofBits .f32 0x00000000#32) := rfl

/-- The kernel's tile at an entry: the two products into zero accumulators (their operands narrowed to bf16, which
    changes nothing over the extended reals), added, then the bias row spread over the rows. The bias is the tile's
    one-row array `brow`. -/
theorem tile_apply (h : FTy.bf16.bits < FTy.f32.bits)
    (x0 x1 : FVec Ideal ⟨2, ![R, K]⟩ .f32) (wl wr : FVec Ideal ⟨2, ![K, N]⟩ .f32) (brow : FVec Ideal ⟨2, ![1, N]⟩ .f32)
    (hb : (⟨2, ![1, N]⟩ : Shape).Broadcasts ⟨2, ![R, N]⟩) (p : Fin R) (q : Fin N) :
    addf (addf (matmul (F := Ideal) (DotDims.plain R K N) none (truncf .bf16 x0 h) (truncf .bf16 wl h)
                  (constant (F := Ideal) ⟨2, ![R, N]⟩ .f32 0x00000000#32))
               (matmul (F := Ideal) (DotDims.plain R K N) none (truncf .bf16 x1 h) (truncf .bf16 wr h)
                  (constant (F := Ideal) ⟨2, ![R, N]⟩ .f32 0x00000000#32)))
         (broadcastTo ⟨2, ![R, N]⟩ brow hb) (ix2 p q)
      = (∑ k : Fin K, x0 (ix2 p k) * wl (ix2 k q) + ∑ k : Fin K, x1 (ix2 p k) * wr (ix2 k q)) + brow (ix2 (0 : Fin 1) q) := by
  rw [addf_apply, addf_apply, Cert.PlainProduct.matmul_zero_apply, Cert.PlainProduct.matmul_zero_apply,
    broadcastTo_1b_ab_apply]
  rfl

/-- The first layer's tile as the body spells it: the neighbourhood block and the bias row pass through shape casts
    to their own shapes, the record of the products is a variable equal to the plain one, and the rectifier is applied
    last against a splat of the zero word. -/
theorem tile1_apply (d : DotDims ⟨2, ![R, K]⟩ ⟨2, ![K, N]⟩ ⟨2, ![R, N]⟩) (hd : d = DotDims.plain R K N)
    (h : FTy.bf16.bits < FTy.f32.bits)
    (hs0 : (⟨2, ![R, K]⟩ : Shape).ShapeCasts ⟨2, ![R, K]⟩) (hs1 : (⟨2, ![1, N]⟩ : Shape).ShapeCasts ⟨2, ![1, N]⟩)
    (hb : (⟨2, ![1, N]⟩ : Shape).Broadcasts ⟨2, ![R, N]⟩)
    (x0 x1 : FVec Ideal ⟨2, ![R, K]⟩ .f32) (wl wr : FVec Ideal ⟨2, ![K, N]⟩ .f32) (brow : FVec Ideal ⟨2, ![1, N]⟩ .f32)
    (p : Fin R) (q : Fin N) :
    maximumf (addf (addf (matmul (F := Ideal) d none (truncf .bf16 (shapeCast ⟨2, ![R, K]⟩ x0 hs0) h) (truncf .bf16 wl h)
                            (constant (F := Ideal) ⟨2, ![R, N]⟩ .f32 0x00000000#32))
                         (matmul (F := Ideal) d none (truncf .bf16 x1 h) (truncf .bf16 wr h)
                            (constant (F := Ideal) ⟨2, ![R, N]⟩ .f32 0x00000000#32)))
                   (broadcastTo ⟨2, ![R, N]⟩ (shapeCast ⟨2, ![1, N]⟩ brow hs1) hb))
             (broadcast ⟨2, ![R, N]⟩ (Scalar.ofBits (F := Ideal) .f32 0x00000000#32)) (ix2 p q)
      = max ((∑ k : Fin K, x0 (ix2 p k) * wl (ix2 k q) + ∑ k : Fin K, x1 (ix2 p k) * wr (ix2 k q)) + brow (ix2 (0 : Fin 1) q))
          (Ideal.ofBits .f32 0x00000000#32) := by
  subst hd
  rw [shapeCast_self, shapeCast_self, maximumf_apply, tile_apply]
  rfl

/-- The second layer's tile as the body spells it: both row blocks and the bias row pass through shape casts to their
    own shapes; no rectifier. -/
theorem tile2_apply (d : DotDims ⟨2, ![R, K]⟩ ⟨2, ![K, N]⟩ ⟨2, ![R, N]⟩) (hd : d = DotDims.plain R K N)
    (h : FTy.bf16.bits < FTy.f32.bits)
    (hs0 : (⟨2, ![R, K]⟩ : Shape).ShapeCasts ⟨2, ![R, K]⟩) (hs1 : (⟨2, ![1, N]⟩ : Shape).ShapeCasts ⟨2, ![1, N]⟩)
    (hb : (⟨2, ![1, N]⟩ : Shape).Broadcasts ⟨2, ![R, N]⟩)
    (x0 x1 : FVec Ideal ⟨2, ![R, K]⟩ .f32) (wl wr : FVec Ideal ⟨2, ![K, N]⟩ .f32) (brow : FVec Ideal ⟨2, ![1, N]⟩ .f32)
    (p : Fin R) (q : Fin N) :
    addf (addf (matmul (F := Ideal) d none (truncf .bf16 (shapeCast ⟨2, ![R, K]⟩ x0 hs0) h) (truncf .bf16 wl h)
                  (constant (F := Ideal) ⟨2, ![R, N]⟩ .f32 0x00000000#32))
               (matmul (F := Ideal) d none (truncf .bf16 (shapeCast ⟨2, ![R, K]⟩ x1 hs0) h) (truncf .bf16 wr h)
                  (constant (F := Ideal) ⟨2, ![R, N]⟩ .f32 0x00000000#32)))
         (broadcastTo ⟨2, ![R, N]⟩ (shapeCast ⟨2, ![1, N]⟩ brow hs1) hb) (ix2 p q)
      = (∑ k : Fin K, x0 (ix2 p k) * wl (ix2 k q) + ∑ k : Fin K, x1 (ix2 p k) * wr (ix2 k q)) + brow (ix2 (0 : Fin 1) q) := by
  subst hd
  rw [shapeCast_self, shapeCast_self, shapeCast_self, tile_apply]

/-- The host's form at an entry: the bias (already spread to the full shape, `bb`) is added to the first product,
    the second product last. -/
theorem host_apply (A X : FVec Ideal ⟨2, ![R, K]⟩ .f32) (Wl Wr : FVec Ideal ⟨2, ![K, N]⟩ .f32)
    (bb : FVec Ideal ⟨2, ![R, N]⟩ .f32) (p : Fin R) (q : Fin N) :
    addf (addf (Host.dotGeneral (F := Ideal) (DotDims.plain R K N) none A Wl) bb)
         (Host.dotGeneral (F := Ideal) (DotDims.plain R K N) none X Wr) (ix2 p q)
      = (∑ k : Fin K, A (ix2 p k) * Wl (ix2 k q) + bb (ix2 p q)) + ∑ k : Fin K, X (ix2 p k) * Wr (ix2 k q) := by
  rw [addf_apply, addf_apply, Cert.PlainProduct.dotGeneral_apply, Cert.PlainProduct.dotGeneral_apply]

/-- The host's form IS the layer's linear part: the bias commutes past the second product. (The record of the two
    products is a variable equal to the plain one, as a printed program names it.) -/
theorem host_eq_lin (d : DotDims ⟨2, ![R, K]⟩ ⟨2, ![K, N]⟩ ⟨2, ![R, N]⟩) (hd : d = DotDims.plain R K N)
    (A X : FVec Ideal ⟨2, ![R, K]⟩ .f32) (Wl Wr : FVec Ideal ⟨2, ![K, N]⟩ .f32)
    (b : Fin N → EReal) (bb : FVec Ideal ⟨2, ![R, N]⟩ .f32)
    (hbb : ∀ (p : Fin R) (q : Fin N), bb (ix2 p q) = b q) :
    addf (addf (Host.dotGeneral (F := Ideal) d none A Wl) bb)
         (Host.dotGeneral (F := Ideal) d none X Wr)
      = lin A X Wl Wr b := by
  subst hd
  funext i
  obtain ⟨p, q, rfl⟩ : ∃ (p : Fin R) (q : Fin N), i = ix2 p q := ⟨i 0, i 1, eq_ix2 i⟩
  rw [host_apply, lin_apply, hbb]
  exact add_right_comm _ _ _

end Cert.Sage

end
-- ==== Proof.LibRowSoftmax.lean ====
/-
  The logarithm of a row-wise softmax of a biased table, over the extended reals.
  For X : [a, b] and a bias row β : [1, b], with L (p, k) = X (p, k) + β (0, k) and M p the maximum of row p of L
  (a fold of max from the lowest value), the entry (p, q) is (L (p, q) − M p) − log Σₖ exp (L (p, k) − M p).
  Read at an index: the vector-unit form (a lane maximum and a lane sum kept as columns and spread back along the
  rows) and the host form (reductions over axis 1, the maximum taken once more against the lowest value, the columns
  re-inserted by broadcasts) are both this function. Entry (p, q) depends on row p of X only.
-/
import Idealize.ShloMosaic.Lib.ValueIdx
import Idealize.ShloMosaic.Lib.ValueLayout
import Idealize.ShloMosaic.Lib.Pipeline.Value
import Idealize.ShloMosaic.PureOps.Ideal.Laws
import Mathlib.Data.Finset.Fold

noncomputable section

namespace Cert.RowSoftmax

open Idealize.ShloMosaic Idealize.ShloMosaic.ValueIdx

variable {a b : ℕ}

/-- The lowest value, as the programs spell it: the word of −∞, never evaluated. -/
abbrev lowest : EReal := Ideal.ofBits .f32 0xFF800000#32

/-- The biased entry. -/
def logit (X : FVec Ideal ⟨2, ![a, b]⟩ .f32) (β : FVec Ideal ⟨2, ![1, b]⟩ .f32) (p : Fin a) (k : Fin b) : EReal :=
  X (ix2 p k) + β (ix2 (0 : Fin 1) k)

/-- The maximum of a row of biased entries. -/
def rowMax (X : FVec Ideal ⟨2, ![a, b]⟩ .f32) (β : FVec Ideal ⟨2, ![1, b]⟩ .f32) (p : Fin a) : EReal :=
  (Finset.univ : Finset (Fin b)).fold max lowest (logit X β p)

/-- A biased entry less its row's maximum. -/
def shifted (X : FVec Ideal ⟨2, ![a, b]⟩ .f32) (β : FVec Ideal ⟨2, ![1, b]⟩ .f32) (p : Fin a) (k : Fin b) : EReal :=
  logit X β p k - rowMax X β p

/-- The logarithm of the softmax along each row. -/
def logSoftmax (X : FVec Ideal ⟨2, ![a, b]⟩ .f32) (β : FVec Ideal ⟨2, ![1, b]⟩ .f32) : FVec Ideal ⟨2, ![a, b]⟩ .f32 :=
  fun i => shifted X β (i 0) (i 1) - Ideal.log (∑ k : Fin b, Ideal.exp (shifted X β (i 0) k))

theorem logSoftmax_apply (X : FVec Ideal ⟨2, ![a, b]⟩ .f32) (β : FVec Ideal ⟨2, ![1, b]⟩ .f32) (p : Fin a) (q : Fin b) :
    logSoftmax X β (ix2 p q) = shifted X β p q - Ideal.log (∑ k : Fin b, Ideal.exp (shifted X β p k)) := rfl

/-- Entry (p, q) reads row p only: two tables that agree on a row give the same entries along it. -/
theorem logSoftmax_row {a' : ℕ} (X : FVec Ideal ⟨2, ![a, b]⟩ .f32) (X' : FVec Ideal ⟨2, ![a', b]⟩ .f32)
    (β : FVec Ideal ⟨2, ![1, b]⟩ .f32) (p : Fin a) (p' : Fin a') (q : Fin b) (h : ∀ k, X (ix2 p k) = X' (ix2 p' k)) :
    logSoftmax X β (ix2 p q) = logSoftmax X' β (ix2 p' q) := by
  have hl : logit X β p = logit X' β p' := funext fun k => by unfold logit; rw [h k]
  rw [logSoftmax_apply, logSoftmax_apply]
  unfold shifted rowMax
  rw [hl]

/-! ## The vector-unit form -/

/-- The lane maximum of a tile kept as a column and spread back along the rows: at (p, q), the fold of max over row p. -/
theorem rowMaxSpread_apply (L : FVec Ideal ⟨2, ![a, b]⟩ .f32)
    (hr : Shape.Reduces ⟨2, ![a, b]⟩ [1] ⟨1, ![a]⟩) (hφ : FKind.Formats .f32)
    (hacc : (0xFF800000#32 : BitVec 32) = FKind.maximumf.neutral .f32 hφ)
    (hc : (⟨1, ![a]⟩ : Shape).ShapeCasts ⟨2, ![a, 1]⟩)
    (hs : (⟨2, ![a, 1]⟩ : Shape).Broadcasts ⟨2, ![a, b]⟩) (p : Fin a) (q : Fin b) :
    broadcastTo ⟨2, ![a, b]⟩ (shapeCast ⟨2, ![a, 1]⟩ (multiReduction (F := Ideal) .maximumf [1] ⟨1, ![a]⟩ L 0xFF800000#32 hr hφ hacc) hc) hs (ix2 p q)
      = (Finset.univ : Finset (Fin b)).fold max lowest (fun k => L (ix2 p k)) := by
  refine (broadcastTo_apply _ hs (ix2 p q) (ix2 p (0 : Fin 1)) fun ax => ?_).trans ?_
  · match ax with
    | ⟨0, _⟩ =>
      show p.val = if a = 1 then 0 else p.val
      split
      · have := p.isLt; omega
      · rfl
    | ⟨1, _⟩ => rfl
  refine (shapeCast_apply _ hc (ix2 p (0 : Fin 1)) (ix1 p) (by
    rw [Shape.rowMajor_val_two, Shape.rowMajor_val_one]
    show p.val = p.val * 1 + 0
    omega)).trans ?_
  refine (Ideal.multiReduction_maximumf_single L 0xFF800000#32 hr hφ hacc (ix1 p)).trans ?_
  exact Finset.fold_congr fun k _ => congrArg L (funext fun ax => Fin.ext (by
    match ax with
    | ⟨0, _⟩ => rfl
    | ⟨1, _⟩ => rfl))

/-- The lane sum of a tile kept as a column: at (p, 0), the sum over row p. -/
theorem rowSumCol_apply (E : FVec Ideal ⟨2, ![a, b]⟩ .f32)
    (hr : Shape.Reduces ⟨2, ![a, b]⟩ [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) :
    shapeCast ⟨2, ![a, 1]⟩ (multiReduction (F := Ideal) .add [1] ⟨1, ![a]⟩ E 0x00000000#32 hr hφ hacc) hc (ix2 p (0 : Fin 1))
      = ∑ k : Fin b, E (ix2 p k) := by
  refine (shapeCast_apply _ hc (ix2 p (0 : Fin 1)) (ix1 p) (by
    rw [Shape.rowMajor_val_two, Shape.rowMajor_val_one]
    show p.val = p.val * 1 + 0
    omega)).trans ?_
  refine (Ideal.multiReduction_add_single E 0x00000000#32 hr hφ hacc (ix1 p)).trans ?_
  exact Finset.sum_congr rfl fun k _ => congrArg E (funext fun ax => Fin.ext (by
    match ax with
    | ⟨0, _⟩ => rfl
    | ⟨1, _⟩ => rfl))

/-- A column spread along the rows reads the column. -/
theorem spread_apply {α : Type} (v : (⟨2, ![a, 1]⟩ : Shape).Idx → α)
    (hs : (⟨2, ![a, 1]⟩ : Shape).Broadcasts ⟨2, ![a, b]⟩) (p : Fin a) (q : Fin b) :
    broadcastTo ⟨2, ![a, b]⟩ v hs (ix2 p q) = v (ix2 p (0 : Fin 1)) := by
  refine broadcastTo_apply v hs (ix2 p q) (ix2 p (0 : Fin 1)) fun ax => ?_
  match ax with
  | ⟨0, _⟩ =>
    show p.val = if a = 1 then 0 else p.val
    split
    · have := p.isLt; omega
    · rfl
  | ⟨1, _⟩ => rfl

/-- The vector-unit computation, entry by entry, is the function above. -/
theorem tile_apply (X : FVec Ideal ⟨2, ![a, b]⟩ .f32) (β : FVec Ideal ⟨2, ![1, b]⟩ .f32)
    (hx : (⟨2, ![a, b]⟩ : Shape).ShapeCasts ⟨2, ![a, b]⟩) (hb : (⟨2, ![1, b]⟩ : Shape).ShapeCasts ⟨2, ![1, b]⟩)
    (hbb : (⟨2, ![1, b]⟩ : Shape).Broadcasts ⟨2, ![a, b]⟩)
    (hr : Shape.Reduces ⟨2, ![a, b]⟩ [1] ⟨1, ![a]⟩) (hφ hφ' : FKind.Formats .f32)
    (hmax : (0xFF800000#32 : BitVec 32) = FKind.maximumf.neutral .f32 hφ)
    (hadd : (0x00000000#32 : BitVec 32) = FKind.add.neutral .f32 hφ')
    (hc : (⟨1, ![a]⟩ : Shape).ShapeCasts ⟨2, ![a, 1]⟩)
    (hs : (⟨2, ![a, 1]⟩ : Shape).Broadcasts ⟨2, ![a, b]⟩) (p : Fin a) (q : Fin b) :
    (have L : FVec Ideal ⟨2, ![a, b]⟩ .f32 := addf (shapeCast ⟨2, ![a, b]⟩ X hx) (broadcastTo ⟨2, ![a, b]⟩ (shapeCast ⟨2, ![1, b]⟩ β hb) hbb)
     have S : FVec Ideal ⟨2, ![a, b]⟩ .f32 := subf L (broadcastTo ⟨2, ![a, b]⟩ (shapeCast ⟨2, ![a, 1]⟩ (multiReduction (F := Ideal) .maximumf [1] ⟨1, ![a]⟩ L 0xFF800000#32 hr hφ hmax) hc) hs)
     subf S (broadcastTo ⟨2, ![a, b]⟩ (log (shapeCast ⟨2, ![a, 1]⟩ (multiReduction (F := Ideal) .add [1] ⟨1, ![a]⟩ (exp S) 0x00000000#32 hr hφ' hadd) hc)) hs)) (ix2 p q)
      = logSoftmax X β (ix2 p q) := by
  have hL : ∀ k : Fin b, addf (shapeCast ⟨2, ![a, b]⟩ X hx) (broadcastTo ⟨2, ![a, b]⟩ (shapeCast ⟨2, ![1, b]⟩ β hb) hbb) (ix2 p k) = logit X β p k :=
    fun k => congrArg₂ (· + ·) (congrFun (shapeCast_self X hx) (ix2 p k))
      ((broadcastTo_1b_ab_apply _ hbb p k).trans (congrFun (shapeCast_self β hb) (ix2 (0 : Fin 1) k)))
  have hM : ∀ k : Fin b, broadcastTo ⟨2, ![a, b]⟩ (shapeCast ⟨2, ![a, 1]⟩ (multiReduction (F := Ideal) .maximumf [1] ⟨1, ![a]⟩
      (addf (shapeCast ⟨2, ![a, b]⟩ X hx) (broadcastTo ⟨2, ![a, b]⟩ (shapeCast ⟨2, ![1, b]⟩ β hb) hbb)) 0xFF800000#32 hr hφ hmax) hc) hs (ix2 p k) = rowMax X β p :=
    fun k => (rowMaxSpread_apply _ hr hφ hmax hc hs p k).trans (Finset.fold_congr fun j _ => hL j)
  have hS : ∀ k : Fin b, subf (addf (shapeCast ⟨2, ![a, b]⟩ X hx) (broadcastTo ⟨2, ![a, b]⟩ (shapeCast ⟨2, ![1, b]⟩ β hb) hbb))
      (broadcastTo ⟨2, ![a, b]⟩ (shapeCast ⟨2, ![a, 1]⟩ (multiReduction (F := Ideal) .maximumf [1] ⟨1, ![a]⟩
        (addf (shapeCast ⟨2, ![a, b]⟩ X hx) (broadcastTo ⟨2, ![a, b]⟩ (shapeCast ⟨2, ![1, b]⟩ β hb) hbb)) 0xFF800000#32 hr hφ hmax) hc) hs) (ix2 p k)
        = shifted X β p k :=
    fun k => congrArg₂ (· - ·) (hL k) (hM k)
  rw [logSoftmax_apply]
  refine congrArg₂ (· - ·) (hS q) ?_
  refine (spread_apply _ hs p q).trans ?_
  refine congrArg Ideal.log ?_
  refine (rowSumCol_apply _ hr hφ' hadd hc p).trans ?_
  exact Finset.sum_congr rfl fun k _ => congrArg Ideal.exp (hS k)

/-! ## The host form -/

/-- The host's maximum over axis 1 of a table, at p: the fold of max over row p from the initial value. -/
theorem hostRowMax_apply (L : FVec Ideal ⟨2, ![a, b]⟩ .f32) (init : (⟨0, ![]⟩ : Shape).Idx → EReal)
    (h' : Shape.ReducesTo ⟨2, ![a, b]⟩ [1] ⟨1, ![a]⟩) (h : Shape.Reduces ⟨2, ![a, b]⟩ [1] ⟨1, ![a]⟩)
    (hu : 0 < (⟨0, ![]⟩ : Shape).numel) (p : Fin a) :
    Host.reduce FloatOps.maximumf L init h' hu (ix1 p)
      = (Finset.univ : Finset (Fin b)).fold max (init (Shape.Idx.first hu)) (fun k => L (ix2 p k)) := by
  refine (Host.reduce_eq_fold_single FloatOps.maximumf L init h' h hu (ix1 p)).trans ?_
  exact Finset.fold_congr fun k _ => congrArg L (funext fun ax => Fin.ext (by
    match ax with
    | ⟨0, _⟩ => rfl
    | ⟨1, _⟩ => rfl))

/-- A maximum of a value with a fold of max that starts at that value is the fold. -/
theorem max_fold_self (c : EReal) (f : Fin b → EReal) :
    max c ((Finset.univ : Finset (Fin b)).fold max c f) = (Finset.univ : Finset (Fin b)).fold max c f :=
  max_eq_right ((Finset.le_fold_max c).mpr (Or.inl le_rfl))

end Cert.RowSoftmax

end
-- ==== Proof.LibGraphLayer.lean ====
/-
  The non-linear half of one graph-convolution layer, row by row over the extended reals.

  For a row v of N extended reals:
    * normRow v q  = v q / max (sqrt (Σₖ v k · v k)) floor      (the row over its Euclidean norm, the norm bounded below
                                                                by the value of one fixed word, never evaluated);
    * logsmRow w q = (w q − M) − log Σₖ exp (w k − M),  M = the fold of max over the row from the lowest value.
  As arrays, `normalize Y` and `logSoftmax Z` apply these along every row of an [R, N] table, and entry (p, q) reads row p
  only. Two ways of computing each are read here at an index and shown to be these functions: the vector-unit form (a
  lane reduction kept as a column and spread back along the rows) and the host form (a reduction over axis 1, the column
  re-inserted and spread by broadcasts; the host's row maximum is taken once more against the lowest value, which
  changes nothing). Nothing here needs the entries to be finite: both forms apply the same operations in the same
  order to the same row.
-/
import proofs.«173884_j83356725281380_1_alg».proof.Proof.LibLinearLayer
import proofs.«173884_j83356725281380_1_alg».proof.Proof.LibRowSoftmax
import Idealize.ShloMosaic.Lib.ValueIdx
import Idealize.ShloMosaic.Lib.ValueLayout
import Idealize.ShloMosaic.Lib.Pipeline.Value
import Idealize.ShloMosaic.PureOps.Ideal.Laws
import Mathlib.Data.Finset.Fold

noncomputable section

namespace Cert.GraphLayer

open Idealize.ShloMosaic Idealize.ShloMosaic.ValueIdx

variable {R K N : ℕ}

/-- The lower bound of a row's norm, as both programs spell it: the value of the word, never evaluated. -/
abbrev floor : EReal := Ideal.ofBits .f32 0x2B8CBCCC#32

/-- The lowest value, from which a row's maximum is folded. -/
abbrev lowest : EReal := Ideal.ofBits .f32 0xFF800000#32

/-- A row over its Euclidean norm, the norm bounded below by `floor`. -/
def normRow (v : Fin N → EReal) (q : Fin N) : EReal :=
  Ideal.div (v q) (max (Ideal.sqrt (∑ k : Fin N, v k * v k)) floor)

/-- The maximum of a row. -/
def rowMax (w : Fin N → EReal) : EReal := (Finset.univ : Finset (Fin N)).fold max lowest w

/-- The logarithm of the softmax of a row. -/
def logsmRow (w : Fin N → EReal) (q : Fin N) : EReal :=
  (w q - rowMax w) - Ideal.log (∑ k : Fin N, Ideal.exp (w k - rowMax w))

/-- Every row of a table over its bounded norm. -/
def normalize (Y : FVec Ideal ⟨2, ![R, N]⟩ .f32) : FVec Ideal ⟨2, ![R, N]⟩ .f32 :=
  fun i => normRow (fun k => Y (ix2 (i 0) k)) (i 1)

theorem normalize_apply (Y : FVec Ideal ⟨2, ![R, N]⟩ .f32) (p : Fin R) (q : Fin N) :
    normalize Y (ix2 p q) = normRow (fun k => Y (ix2 p k)) q := rfl

/-- The log-softmax along every row of a table. -/
def logSoftmax (Z : FVec Ideal ⟨2, ![R, N]⟩ .f32) : FVec Ideal ⟨2, ![R, N]⟩ .f32 :=
  fun i => logsmRow (fun k => Z (ix2 (i 0) k)) (i 1)

theorem logSoftmax_apply (Z : FVec Ideal ⟨2, ![R, N]⟩ .f32) (p : Fin R) (q : Fin N) :
    logSoftmax Z (ix2 p q) = logsmRow (fun k => Z (ix2 p k)) q := rfl

/-- A layer's output before any rectifier: the linear part, each row over its bounded norm. -/
def embed (A X : FVec Ideal ⟨2, ![R, K]⟩ .f32) (Wl Wr : FVec Ideal ⟨2, ![K, N]⟩ .f32) (b : Fin N → EReal) :
    FVec Ideal ⟨2, ![R, N]⟩ .f32 :=
  normalize (Cert.Sage.lin A X Wl Wr b)

/-- The last layer's output: the log-softmax of the normalized linear part. -/
def classify (A X : FVec Ideal ⟨2, ![R, K]⟩ .f32) (Wl Wr : FVec Ideal ⟨2, ![K, N]⟩ .f32) (b : Fin N → EReal) :
    FVec Ideal ⟨2, ![R, N]⟩ .f32 :=
  logSoftmax (embed A X Wl Wr b)

theorem embed_apply (A X : FVec Ideal ⟨2, ![R, K]⟩ .f32) (Wl Wr : FVec Ideal ⟨2, ![K, N]⟩ .f32) (b : Fin N → EReal)
    (p : Fin R) (q : Fin N) :
    embed A X Wl Wr b (ix2 p q) = normRow (fun c => Cert.Sage.linAt A X Wl Wr b p c) q := rfl

theorem classify_apply (A X : FVec Ideal ⟨2, ![R, K]⟩ .f32) (Wl Wr : FVec Ideal ⟨2, ![K, N]⟩ .f32) (b : Fin N → EReal)
    (p : Fin R) (q : Fin N) :
    classify A X Wl Wr b (ix2 p q) = logsmRow (fun c => normRow (fun c' => Cert.Sage.linAt A X Wl Wr b p c') c) q := rfl

/-! ## The vector-unit forms -/

/-- A tile's linear part at (p, q): two products into zero accumulators, their operands narrowed (which changes
    nothing here), added, then the bias row spread over the rows. The operands are given up to equations, so that a
    body that passes some of them through casts to their own shapes is covered. -/
theorem linTile_apply {T : ℕ} (d : DotDims ⟨2, ![T, K]⟩ ⟨2, ![K, N]⟩ ⟨2, ![T, N]⟩) (hd : d = DotDims.plain T K N)
    (h : FTy.bf16.bits < FTy.f32.bits) (hb : (⟨2, ![1, N]⟩ : Shape).Broadcasts ⟨2, ![T, N]⟩)
    (x0' x1' x0 x1 : FVec Ideal ⟨2, ![T, K]⟩ .f32) (wl' wr' wl wr : FVec Ideal ⟨2, ![K, N]⟩ .f32)
    (b' brow : FVec Ideal ⟨2, ![1, N]⟩ .f32)
    (e0 : x0' = x0) (e1 : x1' = x1) (el : wl' = wl) (er : wr' = wr) (eb : b' = brow) (p : Fin T) (q : Fin N) :
    addf (addf (matmul (F := Ideal) d none (truncf .bf16 x0' h) (truncf .bf16 wl' h)
                  (constant (F := Ideal) ⟨2, ![T, N]⟩ .f32 0x00000000#32))
               (matmul (F := Ideal) d none (truncf .bf16 x1' h) (truncf .bf16 wr' h)
                  (constant (F := Ideal) ⟨2, ![T, N]⟩ .f32 0x00000000#32)))
         (broadcastTo ⟨2, ![T, N]⟩ b' hb) (ix2 p q)
      = Cert.Sage.linAt x0 x1 wl wr (fun c => brow (ix2 (0 : Fin 1) c)) p q := by
  subst hd e0 e1 el er eb
  exact Cert.Sage.tile_apply h _ _ _ _ _ hb p q

/-- A tile with every row divided by its norm bounded below: the lane sum of the squares kept as a column, its
    square root, the maximum with a splat of the bound, spread back along the rows. -/
theorem normTile_apply (Y : FVec Ideal ⟨2, ![R, N]⟩ .f32)
    (hr : Shape.Reduces ⟨2, ![R, N]⟩ [1] ⟨1, ![R]⟩) (hφ : FKind.Formats .f32)
    (hadd : (0x00000000#32 : BitVec 32) = FKind.add.neutral .f32 hφ)
    (hc : (⟨1, ![R]⟩ : Shape).ShapeCasts ⟨2, ![R, 1]⟩)
    (hs : (⟨2, ![R, 1]⟩ : Shape).Broadcasts ⟨2, ![R, N]⟩) (p : Fin R) (q : Fin N) :
    divf Y (broadcastTo ⟨2, ![R, N]⟩
        (maximumf (sqrt (shapeCast ⟨2, ![R, 1]⟩ (multiReduction (F := Ideal) .add [1] ⟨1, ![R]⟩ (mulf Y Y) 0x00000000#32 hr hφ hadd) hc))
                  (broadcast ⟨2, ![R, 1]⟩ (Scalar.ofBits (F := Ideal) .f32 0x2B8CBCCC#32))) hs) (ix2 p q)
      = normRow (fun k => Y (ix2 p k)) q := by
  show Ideal.div (Y (ix2 p q)) _ = Ideal.div (Y (ix2 p q)) (max (Ideal.sqrt (∑ k : Fin N, Y (ix2 p k) * Y (ix2 p k))) floor)
  refine congrArg (Ideal.div (Y (ix2 p q))) ?_
  refine (Cert.RowSoftmax.spread_apply _ hs p q).trans ?_
  refine congrArg₂ max ?_ rfl
  exact congrArg Ideal.sqrt (Cert.RowSoftmax.rowSumCol_apply (mulf Y Y) hr hφ hadd hc p)

/-- A tile's log-softmax along the rows: the lane maximum kept as a column and spread back, the difference, its
    exponential's lane sum kept as a column, the logarithm, spread back, the second difference. -/
theorem lsmTile_apply (Z : FVec Ideal ⟨2, ![R, N]⟩ .f32)
    (hr : Shape.Reduces ⟨2, ![R, N]⟩ [1] ⟨1, ![R]⟩) (hφ hφ' : FKind.Formats .f32)
    (hmax : (0xFF800000#32 : BitVec 32) = FKind.maximumf.neutral .f32 hφ)
    (hadd : (0x00000000#32 : BitVec 32) = FKind.add.neutral .f32 hφ')
    (hc : (⟨1, ![R]⟩ : Shape).ShapeCasts ⟨2, ![R, 1]⟩)
    (hs : (⟨2, ![R, 1]⟩ : Shape).Broadcasts ⟨2, ![R, N]⟩) (p : Fin R) (q : Fin N) :
    subf (subf Z (broadcastTo ⟨2, ![R, N]⟩ (shapeCast ⟨2, ![R, 1]⟩ (multiReduction (F := Ideal) .maximumf [1] ⟨1, ![R]⟩ Z 0xFF800000#32 hr hφ hmax) hc) hs))
         (broadcastTo ⟨2, ![R, N]⟩ (log (shapeCast ⟨2, ![R, 1]⟩ (multiReduction (F := Ideal) .add [1] ⟨1, ![R]⟩
            (exp (subf Z (broadcastTo ⟨2, ![R, N]⟩ (shapeCast ⟨2, ![R, 1]⟩ (multiReduction (F := Ideal) .maximumf [1] ⟨1, ![R]⟩ Z 0xFF800000#32 hr hφ hmax) hc) hs)))
            0x00000000#32 hr hφ' hadd) hc)) hs) (ix2 p q)
      = logsmRow (fun k => Z (ix2 p k)) q := by
  have hS : ∀ k : Fin N, subf Z (broadcastTo ⟨2, ![R, N]⟩ (shapeCast ⟨2, ![R, 1]⟩ (multiReduction (F := Ideal) .maximumf [1] ⟨1, ![R]⟩ Z 0xFF800000#32 hr hφ hmax) hc) hs) (ix2 p k)
      = Z (ix2 p k) - rowMax (fun k => Z (ix2 p k)) :=
    fun k => congrArg (Z (ix2 p k) - ·) (Cert.RowSoftmax.rowMaxSpread_apply Z hr hφ hmax hc hs p k)
  show _ - _ = (Z (ix2 p q) - rowMax (fun k => Z (ix2 p k))) - Ideal.log (∑ k : Fin N, Ideal.exp (Z (ix2 p k) - rowMax (fun k => Z (ix2 p k))))
  refine congrArg₂ (· - ·) (hS q) ?_
  refine (Cert.RowSoftmax.spread_apply _ hs p q).trans ?_
  refine congrArg Ideal.log ?_
  refine (Cert.RowSoftmax.rowSumCol_apply _ hr hφ' hadd hc p).trans ?_
  exact Finset.sum_congr rfl fun k _ => congrArg Ideal.exp (hS k)

/-! ## The host forms -/

/-- An [a] vector re-inserted as the column [a, 1] by a broadcast along axis 0. -/
theorem bcastCol_apply {α : Type} {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A column [a, 1] spread to [a, b] by a broadcast along both axes. -/
theorem bcastSpread_apply {α : Type} {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else q.val
    rw [if_pos rfl]

/-- A scalar spread to any shape. -/
theorem bcastScalar_apply {α : Type} {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 (fun a => a.elim0)

/-- The host's sum over axis 1 from the zero word, at p: the sum over row p. -/
theorem hostRowSum_apply {a b : ℕ} (E : FVec Ideal ⟨2, ![a, b]⟩ .f32)
    (h' : Shape.ReducesTo ⟨2, ![a, b]⟩ [1] ⟨1, ![a]⟩) (h : Shape.Reduces ⟨2, ![a, b]⟩ [1] ⟨1, ![a]⟩)
    (hu : 0 < (⟨0, ![]⟩ : Shape).numel) (p : Fin a) :
    Host.reduceAdd E (constant (F := Ideal) ⟨0, ![]⟩ .f32 0x00000000#32) h' hu (ix1 p) = ∑ k : Fin b, E (ix2 p k) := by
  simp only [Host.reduceAdd, Ideal.hostReduceAdd_def]
  rw [Ideal.hostReduceAdd_single h' h]
  rw [constant_apply, Ideal.ofBits_zero_f32, zero_add]
  exact Finset.sum_congr rfl fun k _ => congrArg E (funext fun ax => Fin.ext (by
    match ax with
    | ⟨0, _⟩ => rfl
    | ⟨1, _⟩ => rfl))

/-- The host's normalization of a table, at (p, q). -/
theorem hostNorm_apply (Y : FVec Ideal ⟨2, ![R, N]⟩ .f32)
    (hr' : Shape.ReducesTo ⟨2, ![R, N]⟩ [1] ⟨1, ![R]⟩) (hr : Shape.Reduces ⟨2, ![R, N]⟩ [1] ⟨1, ![R]⟩)
    (hu : 0 < (⟨0, ![]⟩ : Shape).numel)
    (hb0 : (⟨1, ![R]⟩ : Shape).BroadcastsInDim ⟨2, ![R, 1]⟩ ![0])
    (hbe : (⟨0, ![]⟩ : Shape).BroadcastsInDim ⟨2, ![R, 1]⟩ ![])
    (hb1 : (⟨2, ![R, 1]⟩ : Shape).BroadcastsInDim ⟨2, ![R, N]⟩ ![0, 1]) (p : Fin R) (q : Fin N) :
    Host.divf Y (broadcastInDim ⟨2, ![R, N]⟩ ![0, 1] hb1
        (maximumf (Host.sqrt (broadcastInDim ⟨2, ![R, 1]⟩ ![0] hb0
                      (Host.reduceAdd (mulf Y Y) (constant (F := Ideal) ⟨0, ![]⟩ .f32 0x00000000#32) hr' hu)))
                  (broadcastInDim ⟨2, ![R, 1]⟩ ![] hbe (constant (F := Ideal) ⟨0, ![]⟩ .f32 0x2B8CBCCC#32)))) (ix2 p q)
      = normRow (fun k => Y (ix2 p k)) q := by
  show Ideal.div (Y (ix2 p q)) _ = Ideal.div (Y (ix2 p q)) (max (Ideal.sqrt (∑ k : Fin N, Y (ix2 p k) * Y (ix2 p k))) floor)
  refine congrArg (Ideal.div (Y (ix2 p q))) ?_
  refine (bcastSpread_apply _ hb1 p q).trans ?_
  refine congrArg₂ max ?_ (bcastScalar_apply _ hbe _)
  refine congrArg Ideal.sqrt ?_
  refine (bcastCol_apply _ hb0 p 0).trans ?_
  exact hostRowSum_apply (mulf Y Y) hr' hr hu p

/-- The host's log-softmax of a table along axis 1, at (p, q). -/
theorem hostLogSoftmax_apply (Z : FVec Ideal ⟨2, ![R, N]⟩ .f32)
    (hr' : Shape.ReducesTo ⟨2, ![R, N]⟩ [1] ⟨1, ![R]⟩) (hr : Shape.Reduces ⟨2, ![R, N]⟩ [1] ⟨1, ![R]⟩)
    (hu : 0 < (⟨0, ![]⟩ : Shape).numel)
    (hbn : (⟨0, ![]⟩ : Shape).BroadcastsInDim ⟨1, ![R]⟩ ![])
    (hb0 : (⟨1, ![R]⟩ : Shape).BroadcastsInDim ⟨2, ![R, 1]⟩ ![0])
    (hb1 : (⟨2, ![R, 1]⟩ : Shape).BroadcastsInDim ⟨2, ![R, N]⟩ ![0, 1]) (p : Fin R) (q : Fin N) :
    subf (subf Z (broadcastInDim ⟨2, ![R, N]⟩ ![0, 1] hb1 (broadcastInDim ⟨2, ![R, 1]⟩ ![0] hb0
            (maximumf (broadcastInDim ⟨1, ![R]⟩ ![] hbn (constant (F := Ideal) ⟨0, ![]⟩ .f32 0xFF800000#32))
                      (Host.reduce FloatOps.maximumf Z (constant (F := Ideal) ⟨0, ![]⟩ .f32 0xFF800000#32) hr' hu)))))
         (broadcastInDim ⟨2, ![R, N]⟩ ![0, 1] hb1 (Host.log (broadcastInDim ⟨2, ![R, 1]⟩ ![0] hb0
            (Host.reduceAdd (Host.exp (subf Z (broadcastInDim ⟨2, ![R, N]⟩ ![0, 1] hb1 (broadcastInDim ⟨2, ![R, 1]⟩ ![0] hb0
                (maximumf (broadcastInDim ⟨1, ![R]⟩ ![] hbn (constant (F := Ideal) ⟨0, ![]⟩ .f32 0xFF800000#32))
                          (Host.reduce FloatOps.maximumf Z (constant (F := Ideal) ⟨0, ![]⟩ .f32 0xFF800000#32) hr' hu))))))
              (constant (F := Ideal) ⟨0, ![]⟩ .f32 0x00000000#32) hr' hu)))) (ix2 p q)
      = logsmRow (fun k => Z (ix2 p k)) q := by
  have hM : ∀ k : Fin N, broadcastInDim ⟨2, ![R, N]⟩ ![0, 1] hb1 (broadcastInDim ⟨2, ![R, 1]⟩ ![0] hb0
            (maximumf (broadcastInDim ⟨1, ![R]⟩ ![] hbn (constant (F := Ideal) ⟨0, ![]⟩ .f32 0xFF800000#32))
                      (Host.reduce FloatOps.maximumf Z (constant (F := Ideal) ⟨0, ![]⟩ .f32 0xFF800000#32) hr' hu))) (ix2 p k)
      = rowMax (fun k => Z (ix2 p k)) := fun k => by
    refine (bcastSpread_apply _ hb1 p k).trans ?_
    refine (bcastCol_apply _ hb0 p 0).trans ?_
    show max _ _ = _
    rw [bcastScalar_apply _ hbn, Cert.RowSoftmax.hostRowMax_apply Z _ hr' hr hu p]
    exact Cert.RowSoftmax.max_fold_self _ _
  have hS : ∀ k : Fin N, subf Z (broadcastInDim ⟨2, ![R, N]⟩ ![0, 1] hb1 (broadcastInDim ⟨2, ![R, 1]⟩ ![0] hb0
            (maximumf (broadcastInDim ⟨1, ![R]⟩ ![] hbn (constant (F := Ideal) ⟨0, ![]⟩ .f32 0xFF800000#32))
                      (Host.reduce FloatOps.maximumf Z (constant (F := Ideal) ⟨0, ![]⟩ .f32 0xFF800000#32) hr' hu)))) (ix2 p k)
      = Z (ix2 p k) - rowMax (fun k => Z (ix2 p k)) :=
    fun k => congrArg (Z (ix2 p k) - ·) (hM k)
  show _ - _ = (Z (ix2 p q) - rowMax (fun k => Z (ix2 p k))) - Ideal.log (∑ k : Fin N, Ideal.exp (Z (ix2 p k) - rowMax (fun k => Z (ix2 p k))))
  refine congrArg₂ (· - ·) (hS q) ?_
  refine (bcastSpread_apply _ hb1 p q).trans ?_
  refine congrArg Ideal.log ?_
  refine (bcastCol_apply _ hb0 p 0).trans ?_
  refine (hostRowSum_apply _ hr' hr hu p).trans ?_
  exact Finset.sum_congr rfl fun k _ => congrArg Ideal.exp (hS k)

end Cert.GraphLayer

end
-- ==== Proof.KernelTiles.lean ====
/-
  What each kernel body stores, read at an entry. Over the extended reals a tile of 2000 rows is computed row by row:
  entry (p, q) of the first body's store is row p's linear part over its bounded norm, and of the second body's store the
  log-softmax of that; each reads row p of the two row blocks only, the two weight blocks and the bias row whole. So
  when the row blocks are rows of two tables and the other blocks are the weight and bias arrays themselves, the stored
  tile is the corresponding rows of the layer's output table.
-/
import proofs.«173884_j83356725281380_1_alg».proof.Proof.Gen.KernelIdeal.Skeleton
import proofs.«173884_j83356725281380_1_alg».proof.Proof.LibGraphLayer

noncomputable section

namespace Cert.KernelIdeal.Tiles

open Cert.KernelIdeal Cert.KernelIdeal.Gen Cert.GraphLayer
open Idealize.ShloMosaic Idealize.ShloMosaic.ValueIdx

/-- The printed record of the first body's two products is the plain [2000,128]·[128,32] product. -/
theorem dot0_plain : dot_S2000x128_S128x32_S2000x32_1_0_0_1_n_n = DotDims.plain 2000 128 32 := rfl

/-- The printed record of the second body's two products is the plain [2000,32]·[32,7] product. -/
theorem dot1_plain : dot_S2000x32_S32x7_S2000x7_1_0_0_1_n_n = DotDims.plain 2000 32 7 := rfl

/-- The first body's linear part at (p, c): the neighbourhood block and the weight blocks pass through casts to their own
    shapes, the bias row through two. -/
theorem lin0_apply (x0 x1 : Vec Ideal S2000x128 .f32) (x2 x3 : Vec Ideal S128x32 .f32) (x4 : Vec Ideal S1x32 .f32)
    (p : Fin 2000) (c : Fin 32) :
    addf (addf (matmul (F := Ideal) dot_S2000x128_S128x32_S2000x32_1_0_0_1_n_n none
                  (truncf .bf16 (shapeCast S2000x128 x0 shapeCasts_S2000x128_S2000x128) bitsLt_bf16_f32)
                  (truncf .bf16 (shapeCast S128x32 x2 shapeCasts_S128x32_S128x32) bitsLt_bf16_f32)
                  (constant (F := Ideal) S2000x32 .f32 0x00000000#32))
               (matmul (F := Ideal) dot_S2000x128_S128x32_S2000x32_1_0_0_1_n_n none
                  (truncf .bf16 x1 bitsLt_bf16_f32)
                  (truncf .bf16 (shapeCast S128x32 x3 shapeCasts_S128x32_S128x32) bitsLt_bf16_f32)
                  (constant (F := Ideal) S2000x32 .f32 0x00000000#32)))
         (broadcastTo S2000x32 (shapeCast S1x32 (shapeCast S1x32 x4 shapeCasts_S1x32_S1x32) shapeCasts_S1x32_S1x32) broadcasts_S1x32_S2000x32) (ix2 p c)
      = Cert.Sage.linAt x0 x1 x2 x3 (fun c => x4 (ix2 (0 : Fin 1) c)) p c :=
  linTile_apply dot_S2000x128_S128x32_S2000x32_1_0_0_1_n_n dot0_plain bitsLt_bf16_f32 broadcasts_S1x32_S2000x32
    _ _ x0 x1 _ _ x2 x3 _ x4
    (shapeCast_self x0 shapeCasts_S2000x128_S2000x128) rfl
    (shapeCast_self x2 shapeCasts_S128x32_S128x32) (shapeCast_self x3 shapeCasts_S128x32_S128x32)
    ((shapeCast_self _ shapeCasts_S1x32_S1x32).trans (shapeCast_self x4 shapeCasts_S1x32_S1x32)) p c

/-- The second body's linear part at (p, c): both row blocks and the weight blocks pass through casts to their own
    shapes, the bias row through two. -/
theorem lin1_apply (x0 x1 : Vec Ideal S2000x32 .f32) (x2 x3 : Vec Ideal S32x7 .f32) (x4 : Vec Ideal S1x7 .f32)
    (p : Fin 2000) (c : Fin 7) :
    addf (addf (matmul (F := Ideal) dot_S2000x32_S32x7_S2000x7_1_0_0_1_n_n none
                  (truncf .bf16 (shapeCast S2000x32 x0 shapeCasts_S2000x32_S2000x32) bitsLt_bf16_f32)
                  (truncf .bf16 (shapeCast S32x7 x2 shapeCasts_S32x7_S32x7) bitsLt_bf16_f32)
                  (constant (F := Ideal) S2000x7 .f32 0x00000000#32))
               (matmul (F := Ideal) dot_S2000x32_S32x7_S2000x7_1_0_0_1_n_n none
                  (truncf .bf16 (shapeCast S2000x32 x1 shapeCasts_S2000x32_S2000x32) bitsLt_bf16_f32)
                  (truncf .bf16 (shapeCast S32x7 x3 shapeCasts_S32x7_S32x7) bitsLt_bf16_f32)
                  (constant (F := Ideal) S2000x7 .f32 0x00000000#32)))
         (broadcastTo S2000x7 (shapeCast S1x7 (shapeCast S1x7 x4 shapeCasts_S1x7_S1x7) shapeCasts_S1x7_S1x7) broadcasts_S1x7_S2000x7) (ix2 p c)
      = Cert.Sage.linAt x0 x1 x2 x3 (fun c => x4 (ix2 (0 : Fin 1) c)) p c :=
  linTile_apply dot_S2000x32_S32x7_S2000x7_1_0_0_1_n_n dot1_plain bitsLt_bf16_f32 broadcasts_S1x7_S2000x7
    _ _ x0 x1 _ _ x2 x3 _ x4
    (shapeCast_self x0 shapeCasts_S2000x32_S2000x32) (shapeCast_self x1 shapeCasts_S2000x32_S2000x32)
    (shapeCast_self x2 shapeCasts_S32x7_S32x7) (shapeCast_self x3 shapeCasts_S32x7_S32x7)
    ((shapeCast_self _ shapeCasts_S1x7_S1x7).trans (shapeCast_self x4 shapeCasts_S1x7_S1x7)) p c

/-- The first body's store at (p, q): row p's linear part over its bounded norm. -/
theorem pay0_apply (x0 x1 : Vec Ideal S2000x128 .f32) (x2 x3 : Vec Ideal S128x32 .f32) (x4 : Vec Ideal S1x32 .f32)
    (p : Fin 2000) (q : Fin 32) :
    k0_pay1 (F := Ideal) x0 x1 x2 x3 x4 (ix2 p q)
      = normRow (fun c => Cert.Sage.linAt x0 x1 x2 x3 (fun c => x4 (ix2 (0 : Fin 1) c)) p c) q := by
  unfold k0_pay1
  refine (normTile_apply _ reduces_S2000x32_S2000 (.inl rfl) rfl shapeCasts_S2000_S2000x1 broadcasts_S2000x1_S2000x32 p q).trans ?_
  exact congrArg (fun v => normRow v q) (funext fun c => lin0_apply x0 x1 x2 x3 x4 p c)

/-- The second body's store at (p, q): the log-softmax of row p's normalized linear part. -/
theorem pay1_apply (x0 x1 : Vec Ideal S2000x32 .f32) (x2 x3 : Vec Ideal S32x7 .f32) (x4 : Vec Ideal S1x7 .f32)
    (p : Fin 2000) (q : Fin 7) :
    k1_pay1 (F := Ideal) x0 x1 x2 x3 x4 (ix2 p q)
      = logsmRow (fun c => normRow (fun c' => Cert.Sage.linAt x0 x1 x2 x3 (fun c => x4 (ix2 (0 : Fin 1) c)) p c') c) q := by
  unfold k1_pay1
  refine (lsmTile_apply _ reduces_S2000x7_S2000 (.inl rfl) (.inl rfl) rfl rfl shapeCasts_S2000_S2000x1 broadcasts_S2000x1_S2000x7 p q).trans ?_
  refine congrArg (fun v => logsmRow v q) (funext fun c => ?_)
  refine (normTile_apply _ reduces_S2000x7_S2000 (.inl rfl) rfl shapeCasts_S2000_S2000x1 broadcasts_S2000x1_S2000x7 p c).trans ?_
  exact congrArg (fun v => normRow v c) (funext fun c' => lin1_apply x0 x1 x2 x3 x4 p c')

/-- Row locality of the linear part: it reads row p of the two row blocks only. -/
theorem linAt_rows {T R K N : ℕ} (x0 x1 : FVec Ideal ⟨2, ![T, K]⟩ .f32) (A X : FVec Ideal ⟨2, ![R, K]⟩ .f32)
    (Wl Wr : FVec Ideal ⟨2, ![K, N]⟩ .f32) (b : Fin N → EReal) (p : Fin T) (r : Fin R)
    (h0 : ∀ k : Fin K, x0 (ix2 p k) = A (ix2 r k)) (h1 : ∀ k : Fin K, x1 (ix2 p k) = X (ix2 r k)) (c : Fin N) :
    Cert.Sage.linAt x0 x1 Wl Wr b p c = Cert.Sage.linAt A X Wl Wr b r c := by
  unfold Cert.Sage.linAt
  simp only [h0, h1]

/-- The first body's store as rows of the first layer's table: when the two row blocks at local row `y 0` are rows
    `i 0` of the tables A and X, the weight and bias blocks the arrays themselves, and the columns agree. -/
theorem pay0_rows (x0 x1 : Vec Ideal S2000x128 .f32) (x2 x3 : Vec Ideal S128x32 .f32) (x4 : Vec Ideal S1x32 .f32)
    (A X : FVec Ideal S50000x128 .f32) (Wl Wr : FVec Ideal S128x32 .f32) (B : FVec Ideal S1x32 .f32)
    (y : S2000x32.Idx) (i : S50000x32.Idx)
    (h0 : ∀ k : Fin 128, x0 (ix2 (y 0) k) = A (ix2 (i 0) k)) (h1 : ∀ k : Fin 128, x1 (ix2 (y 0) k) = X (ix2 (i 0) k))
    (h2 : x2 = Wl) (h3 : x3 = Wr) (h4 : x4 = B) (hq : (y 1).val = (i 1).val) :
    k0_pay1 (F := Ideal) x0 x1 x2 x3 x4 y = embed A X Wl Wr (fun c => B (ix2 (0 : Fin 1) c)) i := by
  obtain ⟨p, q, rfl⟩ : ∃ (p : Fin 2000) (q : Fin 32), y = ix2 p q := ⟨y 0, y 1, eq_ix2 y⟩
  obtain ⟨r, q', rfl⟩ : ∃ (r : Fin 50000) (q' : Fin 32), i = ix2 r q' := ⟨i 0, i 1, eq_ix2 i⟩
  obtain rfl : q = q' := Fin.ext hq
  subst h2 h3 h4
  rw [pay0_apply, embed_apply]
  exact congrArg (fun v => normRow v q) (funext fun c => linAt_rows x0 x1 A X x2 x3 _ p r h0 h1 c)

/-- The second body's store as rows of the second layer's table. -/
theorem pay1_rows (x0 x1 : Vec Ideal S2000x32 .f32) (x2 x3 : Vec Ideal S32x7 .f32) (x4 : Vec Ideal S1x7 .f32)
    (A X : FVec Ideal S50000x32 .f32) (Wl Wr : FVec Ideal S32x7 .f32) (B : FVec Ideal S1x7 .f32)
    (y : S2000x7.Idx) (i : S50000x7.Idx)
    (h0 : ∀ k : Fin 32, x0 (ix2 (y 0) k) = A (ix2 (i 0) k)) (h1 : ∀ k : Fin 32, x1 (ix2 (y 0) k) = X (ix2 (i 0) k))
    (h2 : x2 = Wl) (h3 : x3 = Wr) (h4 : x4 = B) (hq : (y 1).val = (i 1).val) :
    k1_pay1 (F := Ideal) x0 x1 x2 x3 x4 y = classify A X Wl Wr (fun c => B (ix2 (0 : Fin 1) c)) i := by
  obtain ⟨p, q, rfl⟩ : ∃ (p : Fin 2000) (q : Fin 7), y = ix2 p q := ⟨y 0, y 1, eq_ix2 y⟩
  obtain ⟨r, q', rfl⟩ : ∃ (r : Fin 50000) (q' : Fin 7), i = ix2 r q' := ⟨i 0, i 1, eq_ix2 i⟩
  obtain rfl : q = q' := Fin.ext hq
  subst h2 h3 h4
  rw [pay1_apply, classify_apply]
  exact congrArg (fun v => logsmRow v q) (funext fun c => congrArg (fun v => normRow v c)
    (funext fun c' => linAt_rows x0 x1 A X x2 x3 _ p r h0 h1 c'))

end Cert.KernelIdeal.Tiles

end
-- ==== Proof.KernelBlocks.lean ====
/-
  From blocks to arrays. Each pallas_call walks 25 grid points; at point t its two row-block windows hold rows
  2000·t … 2000·t + 1999 of their arrays, its weight and bias windows the whole arrays, and it writes the same rows of
  its output array back. Since the body's store at a local row is the layer's output at the corresponding row of the
  tables, every write-back is a block of ONE whole-array function, and the 25 blocks cover the output array.
-/
import proofs.«173884_j83356725281380_1_alg».proof.Proof.Gen.KernelIdeal.Frame
import proofs.«173884_j83356725281380_1_alg».proof.Proof.KernelTiles
import Idealize.ShloMosaic.Lib.Pipeline.Value

set_option maxRecDepth 16384

noncomputable section

namespace Cert.KernelIdeal.Blocks

open Cert.KernelIdeal Cert.KernelIdeal.Gen Cert.KernelIdeal.Tiles Cert.GraphLayer
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 0 -/

/-- The index maps of region 0, decided over its 25 grid points: the two row-block windows and the output window are at
    block (t, 0), the weight and bias windows at block (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point t writes back is block t — rows 2000·t … 2000·t + 1999 — of the first layer's table of the arrays as the region finds them. -/
theorem flushed0_eq (c : Dev nD) (t : Fin cfg0.N) :
    (dat0 V c).flushed 5 t = ((cfg0.win 5).blk t).view.read (Elt Ideal) (embed (V c main_v18) (V c main_arg0) (V c main_v19) (V c main_v20) (fun q => (V c main_v21 : S1x32.Idx → EReal) (ix2 (0 : Fin 1) q))) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x32) hz, View.ld_unit_zero (S := S1x32) hz]
  obtain ⟨e00, e01, e10, e11, e20, e21, e30, e31, e40, e41, e50, e51⟩ := idx0 t
  funext j
  rw [View.read_apply]
  refine pay0_rows (iblk0 V c 0 t) (iblk0 V c 1 t) (iblk0 V c 2 t) (iblk0 V c 3 t) (iblk0 V c 4 t)
    (V c main_v18) (V c main_arg0) (V c main_v19) (V c main_v20) (V c main_v21) j (((cfg0.win 5).blk t).view.emb j) ?_ ?_ ?_ ?_ ?_ ?_
  · intro x
    unfold iblk0
    rw [View.read_apply]
    show (V c main_v18 : S50000x128.Idx → EReal) _ = V c main_v18 _
    refine congrArg (V c main_v18) (funext fun a => Fin.ext ?_)
    match a with
    | ⟨0, _⟩ =>
      show win0_0.index t (0 : Fin 2) * 2000 + 1 * (j 0).val = win0_5.index t (0 : Fin 2) * 2000 + 1 * (j 0).val
      rw [e00, e50]
    | ⟨1, _⟩ =>
      show win0_0.index t (1 : Fin 2) * 128 + 1 * x.val = x.val
      rw [e01]; omega
  · intro x
    unfold iblk0
    rw [View.read_apply]
    show (V c main_arg0 : S50000x128.Idx → EReal) _ = V c main_arg0 _
    refine congrArg (V c main_arg0) (funext fun a => Fin.ext ?_)
    match a with
    | ⟨0, _⟩ =>
      show win0_1.index t (0 : Fin 2) * 2000 + 1 * (j 0).val = win0_5.index t (0 : Fin 2) * 2000 + 1 * (j 0).val
      rw [e10, e50]
    | ⟨1, _⟩ =>
      show win0_1.index t (1 : Fin 2) * 128 + 1 * x.val = x.val
      rw [e11]; omega
  · funext y
    unfold iblk0
    rw [View.read_apply]
    show (V c main_v19 : S128x32.Idx → EReal) _ = V c main_v19 y
    refine congrArg (V c main_v19) (funext fun a => Fin.ext ?_)
    match a with
    | ⟨0, _⟩ =>
      show win0_2.index t (0 : Fin 2) * 128 + 1 * (y 0).val = (y 0).val
      rw [e20]; omega
    | ⟨1, _⟩ =>
      show win0_2.index t (1 : Fin 2) * 32 + 1 * (y 1).val = (y 1).val
      rw [e21]; omega
  · funext y
    unfold iblk0
    rw [View.read_apply]
    show (V c main_v20 : S128x32.Idx → EReal) _ = V c main_v20 y
    refine congrArg (V c main_v20) (funext fun a => Fin.ext ?_)
    match a with
    | ⟨0, _⟩ =>
      show win0_3.index t (0 : Fin 2) * 128 + 1 * (y 0).val = (y 0).val
      rw [e30]; omega
    | ⟨1, _⟩ =>
      show win0_3.index t (1 : Fin 2) * 32 + 1 * (y 1).val = (y 1).val
      rw [e31]; omega
  · funext y
    unfold iblk0
    rw [View.read_apply]
    show (V c main_v21 : S1x32.Idx → EReal) _ = V c main_v21 y
    refine congrArg (V c main_v21) (funext fun a => Fin.ext ?_)
    match a with
    | ⟨0, _⟩ =>
      show win0_4.index t (0 : Fin 2) * 1 + 1 * (y 0).val = (y 0).val
      rw [e40]; omega
    | ⟨1, _⟩ =>
      show win0_4.index t (1 : Fin 2) * 32 + 1 * (y 1).val = (y 1).val
      rw [e41]; omega
  · show (j 1).val = win0_5.index t (1 : Fin 2) * 32 + 1 * (j 1).val
    rw [e51]; omega

/-- An index of the output array is in point t's block iff each coordinate is in the block's range on its axis. -/
theorem mem_blk0 (t : Fin cfg0.N) (i : S50000x32.Idx) :
    i ∈ ((cfg0.win 5).blk t).view.set ↔ ∀ a : Fin 2, win0_5.index t a * S2000x32.size a ≤ (i a).val ∧ (i a).val < win0_5.index t a * S2000x32.size a + S2000x32.size a := by
  show i ∈ ((View.whole main_v22).slice (win0_5.rect t)).set ↔ _
  rw [View.set_slice_whole, Rect.mem_set_unit]
  exact Iff.rfl

/-- Every index of the output array is in the block of the point its row falls in. -/
theorem cover0 (i : S50000x32.Idx) : ∃ t : Fin cfg0.N, (cfg0.win 5).flush t = true ∧ i ∈ ((cfg0.win 5).blk t).view.set := by
  have hi0 : (i 0).val < 50000 := (i 0).isLt
  have hi1 : (i 1).val < 32 := (i 1).isLt
  have hN : cfg0.N = 25 := N_0
  have ht : (i 0).val / 2000 < cfg0.N := by rw [hN]; omega
  obtain ⟨-, -, -, -, -, -, -, -, -, -, e50, e51⟩ := idx0 ⟨(i 0).val / 2000, ht⟩
  have e50' : win0_5.index ⟨(i 0).val / 2000, ht⟩ (0 : Fin 2) = (i 0).val / 2000 := e50
  refine ⟨⟨(i 0).val / 2000, ht⟩, flush0_5 _, ?_⟩
  rw [mem_blk0]
  intro a
  match a with
  | ⟨0, _⟩ =>
    show win0_5.index ⟨(i 0).val / 2000, ht⟩ (0 : Fin 2) * 2000 ≤ (i 0).val ∧ (i 0).val < win0_5.index ⟨(i 0).val / 2000, ht⟩ (0 : Fin 2) * 2000 + 2000
    rw [e50']; omega
  | ⟨1, _⟩ =>
    show win0_5.index ⟨(i 0).val / 2000, ht⟩ (1 : Fin 2) * 32 ≤ (i 1).val ∧ (i 1).val < win0_5.index ⟨(i 0).val / 2000, ht⟩ (1 : Fin 2) * 32 + 32
    rw [e51]; omega

/-- So the output array ends holding the first layer's table of the arrays as the region finds them. -/
theorem final0 (c : Dev nD) : (dat0 V c).arrAt 5 cfg0.N = (embed (V c main_v18) (V c main_arg0) (V c main_v19) (V c main_v20) (fun q => (V c main_v21 : S1x32.Idx → EReal) (ix2 (0 : Fin 1) q))) :=
  (dat0 V c).arrAt_eq_of_cover 5 _ (fun t _ => flushed0_eq V c t) cover0

/-! ## Region 1 -/

/-- The index maps of region 1, decided over its 25 grid points: the two row-block windows and the output window are at
    block (t, 0), the weight and bias windows at block (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is block t — rows 2000·t … 2000·t + 1999 — of the second layer's table of the arrays as the region finds them. -/
theorem flushed1_eq (c : Dev nD) (t : Fin cfg1.N) :
    (dat1 V c).flushed 5 t = ((cfg1.win 5).blk t).view.read (Elt Ideal) (classify (V c main_v43) (V c main_v24) (V c main_v44) (V c main_v45) (fun q => (V c main_v46 : S1x7.Idx → EReal) (ix2 (0 : Fin 1) q))) := by
  show (cfg1.win 5).cut (grid1.coords t) ((dat1 V c).after 5 t) = _
  rw [after1_5]
  unfold out1_5
  rw [View.canon_unit_zero hz]
  simp only [View.ld_unit_zero (S := S2000x32) hz, View.ld_unit_zero (S := S32x7) hz, View.ld_unit_zero (S := S1x7) hz]
  obtain ⟨e00, e01, e10, e11, e20, e21, e30, e31, e40, e41, e50, e51⟩ := idx1 t
  funext j
  rw [View.read_apply]
  refine pay1_rows (iblk1 V c 0 t) (iblk1 V c 1 t) (iblk1 V c 2 t) (iblk1 V c 3 t) (iblk1 V c 4 t)
    (V c main_v43) (V c main_v24) (V c main_v44) (V c main_v45) (V c main_v46) j (((cfg1.win 5).blk t).view.emb j) ?_ ?_ ?_ ?_ ?_ ?_
  · intro x
    unfold iblk1
    rw [View.read_apply]
    show (V c main_v43 : S50000x32.Idx → EReal) _ = V c main_v43 _
    refine congrArg (V c main_v43) (funext fun a => Fin.ext ?_)
    match a with
    | ⟨0, _⟩ =>
      show win1_0.index t (0 : Fin 2) * 2000 + 1 * (j 0).val = win1_5.index t (0 : Fin 2) * 2000 + 1 * (j 0).val
      rw [e00, e50]
    | ⟨1, _⟩ =>
      show win1_0.index t (1 : Fin 2) * 32 + 1 * x.val = x.val
      rw [e01]; omega
  · intro x
    unfold iblk1
    rw [View.read_apply]
    show (V c main_v24 : S50000x32.Idx → EReal) _ = V c main_v24 _
    refine congrArg (V c main_v24) (funext fun a => Fin.ext ?_)
    match a with
    | ⟨0, _⟩ =>
      show win1_1.index t (0 : Fin 2) * 2000 + 1 * (j 0).val = win1_5.index t (0 : Fin 2) * 2000 + 1 * (j 0).val
      rw [e10, e50]
    | ⟨1, _⟩ =>
      show win1_1.index t (1 : Fin 2) * 32 + 1 * x.val = x.val
      rw [e11]; omega
  · funext y
    unfold iblk1
    rw [View.read_apply]
    show (V c main_v44 : S32x7.Idx → EReal) _ = V c main_v44 y
    refine congrArg (V c main_v44) (funext fun a => Fin.ext ?_)
    match a with
    | ⟨0, _⟩ =>
      show win1_2.index t (0 : Fin 2) * 32 + 1 * (y 0).val = (y 0).val
      rw [e20]; omega
    | ⟨1, _⟩ =>
      show win1_2.index t (1 : Fin 2) * 7 + 1 * (y 1).val = (y 1).val
      rw [e21]; omega
  · funext y
    unfold iblk1
    rw [View.read_apply]
    show (V c main_v45 : S32x7.Idx → EReal) _ = V c main_v45 y
    refine congrArg (V c main_v45) (funext fun a => Fin.ext ?_)
    match a with
    | ⟨0, _⟩ =>
      show win1_3.index t (0 : Fin 2) * 32 + 1 * (y 0).val = (y 0).val
      rw [e30]; omega
    | ⟨1, _⟩ =>
      show win1_3.index t (1 : Fin 2) * 7 + 1 * (y 1).val = (y 1).val
      rw [e31]; omega
  · funext y
    unfold iblk1
    rw [View.read_apply]
    show (V c main_v46 : S1x7.Idx → EReal) _ = V c main_v46 y
    refine congrArg (V c main_v46) (funext fun a => Fin.ext ?_)
    match a with
    | ⟨0, _⟩ =>
      show win1_4.index t (0 : Fin 2) * 1 + 1 * (y 0).val = (y 0).val
      rw [e40]; omega
    | ⟨1, _⟩ =>
      show win1_4.index t (1 : Fin 2) * 7 + 1 * (y 1).val = (y 1).val
      rw [e41]; omega
  · show (j 1).val = win1_5.index t (1 : Fin 2) * 7 + 1 * (j 1).val
    rw [e51]; omega

/-- An index of the output array is in point t's block iff each coordinate is in the block's range on its axis. -/
theorem mem_blk1 (t : Fin cfg1.N) (i : S50000x7.Idx) :
    i ∈ ((cfg1.win 5).blk t).view.set ↔ ∀ a : Fin 2, win1_5.index t a * S2000x7.size a ≤ (i a).val ∧ (i a).val < win1_5.index t a * S2000x7.size a + S2000x7.size a := by
  show i ∈ ((View.whole main_v47).slice (win1_5.rect t)).set ↔ _
  rw [View.set_slice_whole, Rect.mem_set_unit]
  exact Iff.rfl

/-- Every index of the output array is in the block of the point its row falls in. -/
theorem cover1 (i : S50000x7.Idx) : ∃ t : Fin cfg1.N, (cfg1.win 5).flush t = true ∧ i ∈ ((cfg1.win 5).blk t).view.set := by
  have hi0 : (i 0).val < 50000 := (i 0).isLt
  have hi1 : (i 1).val < 7 := (i 1).isLt
  have hN : cfg1.N = 25 := N_1
  have ht : (i 0).val / 2000 < cfg1.N := by rw [hN]; omega
  obtain ⟨-, -, -, -, -, -, -, -, -, -, e50, e51⟩ := idx1 ⟨(i 0).val / 2000, ht⟩
  have e50' : win1_5.index ⟨(i 0).val / 2000, ht⟩ (0 : Fin 2) = (i 0).val / 2000 := e50
  refine ⟨⟨(i 0).val / 2000, ht⟩, flush1_5 _, ?_⟩
  rw [mem_blk1]
  intro a
  match a with
  | ⟨0, _⟩ =>
    show win1_5.index ⟨(i 0).val / 2000, ht⟩ (0 : Fin 2) * 2000 ≤ (i 0).val ∧ (i 0).val < win1_5.index ⟨(i 0).val / 2000, ht⟩ (0 : Fin 2) * 2000 + 2000
    rw [e50']; omega
  | ⟨1, _⟩ =>
    show win1_5.index ⟨(i 0).val / 2000, ht⟩ (1 : Fin 2) * 7 ≤ (i 1).val ∧ (i 1).val < win1_5.index ⟨(i 0).val / 2000, ht⟩ (1 : Fin 2) * 7 + 7
    rw [e51]; omega

/-- So the output array ends holding the second layer's table of the arrays as the region finds them. -/
theorem final1 (c : Dev nD) : (dat1 V c).arrAt 5 cfg1.N = (classify (V c main_v43) (V c main_v24) (V c main_v44) (V c main_v45) (fun q => (V c main_v46 : S1x7.Idx → EReal) (ix2 (0 : Fin 1) q))) :=
  (dat1 V c).arrAt_eq_of_cover 5 _ (fun t _ => flushed1_eq V c t) cover1

end Cert.KernelIdeal.Blocks

end
-- ==== Proof.KernelValue.lean ====
/-
  The kernel's two results as functions of its nine arguments, over the extended reals:

      embedding = embed (meanA x src dst) x W1_lᵀ W1_rᵀ b1
      output    = classify (meanB h src dst) h W2_lᵀ W2_rᵀ b2,      h = relu32 embedding,

  read off the run: the first region's output array is the first layer's table of the arrays the host prepared, the host
  then prepares the second region's arrays from it, and the second region's output array is the second layer's table.
-/
import proofs.«173884_j83356725281380_1_alg».proof.Proof.KernelRun
import proofs.«173884_j83356725281380_1_alg».proof.Proof.KernelHost
import proofs.«173884_j83356725281380_1_alg».proof.Proof.KernelBlocks

set_option maxRecDepth 16384

noncomputable section

namespace Cert.KernelIdeal.Result

open Cert.KernelIdeal Cert.KernelIdeal.Gen Cert.KernelIdeal.HostSide Cert.KernelIdeal.Blocks Cert.GraphLayer
open Idealize.ShloMosaic Idealize.ShloMosaic.TcCoe Idealize.SL.Sem Idealize.ShloMosaic.ValueIdx

/-- The first layer's table of the argument arrays. -/
def embeddingOf (x : FVec Ideal S50000x128 .f32) (src dst : IVec S1600000 32) (w1l : FVec Ideal S32x128 .f32) (b1 : FVec Ideal S32 .f32)
    (w1r : FVec Ideal S32x128 .f32) : FVec Ideal S50000x32 .f32 :=
  embed (meanA (F := Ideal) x src dst) x (transpose S128x32 [1, 0] w1l transposes_S32x128_S128x32_1_0)
    (transpose S128x32 [1, 0] w1r transposes_S32x128_S128x32_1_0) (fun q => b1 (ix1 q))

/-- The second layer's table of the rectified embedding and the argument arrays. -/
def outputOf (h : FVec Ideal S50000x32 .f32) (src dst : IVec S1600000 32) (w2l : FVec Ideal S7x32 .f32) (b2 : FVec Ideal S7 .f32)
    (w2r : FVec Ideal S7x32 .f32) : FVec Ideal S50000x7 .f32 :=
  classify (meanB (F := Ideal) h src dst) h (transpose S32x7 [1, 0] w2l transposes_S7x32_S32x7_1_0)
    (transpose S32x7 [1, 0] w2r transposes_S7x32_S32x7_1_0) (fun q => b2 (ix1 q))

variable (m : (ℓ : Loc nD τ sig) → Buf (Elt Ideal) ℓ) (ρ : Dev nD → PrngReg)

/-- The first result, of the launch contents of the arguments. -/
def embedding (c : Dev nD) : FVec Ideal S50000x32 .f32 :=
  embeddingOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

/-- The second result, of the launch contents of the arguments. -/
def output (c : Dev nD) : FVec Ideal S50000x7 .f32 :=
  outputOf (relu32 (F := Ideal) (embedding m c)) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg8))

/-- What the first region leaves in its output array. -/
theorem mid_out (c : Dev nD) : W2 m ρ c (Proc.devRef .tc main_v22) = embedding m c := by
  refine (W2_arr m ρ c 5).trans ?_
  refine (final0 (V1 m ρ) c).trans ?_
  have e1 : V1 m ρ c main_v18 = meanA (m ((c.tc : Thread nD τ).loc main_arg0)) (m ((c.tc : Thread nD τ).loc main_arg1)) (m ((c.tc : Thread nD τ).loc main_arg2)) := entry0_mean m ρ c
  have e2 : V1 m ρ c main_arg0 = (m ((c.tc : Thread nD τ).loc main_arg0)) := entry0_x m ρ c
  have e3 : V1 m ρ c main_v19 = transpose S128x32 [1, 0] (m ((c.tc : Thread nD τ).loc main_arg3)) transposes_S32x128_S128x32_1_0 := entry0_wl m ρ c
  have e4 : V1 m ρ c main_v20 = transpose S128x32 [1, 0] (m ((c.tc : Thread nD τ).loc main_arg5)) transposes_S32x128_S128x32_1_0 := entry0_wr m ρ c
  have e5 : V1 m ρ c main_v21 = shapeCast S1x32 (m ((c.tc : Thread nD τ).loc main_arg4)) shapeCasts_S32_S1x32 := entry0_b m ρ c
  rw [e1, e2, e3, e4, e5]
  simp only [shapeCast_a_1a_apply]
  rfl

/-- The first result after the run. -/
theorem out0_eq (c : Dev nD) : W4 m ρ c (Proc.devRef .tc main_v22) = embedding m c :=
  (out0_kept m ρ c).trans (mid_out m ρ c)

/-- The second result after the run. -/
theorem out1_eq (c : Dev nD) : W4 m ρ c (Proc.devRef .tc main_v47) = output m c := by
  refine (W4_arr m ρ c 5).trans ?_
  refine (final1 (V3 m ρ) c).trans ?_
  have e1 : V3 m ρ c main_v43 = meanB (relu32 (W2 m ρ c (Proc.devRef .tc main_v22))) (W2 m ρ c (Proc.devRef .tc main_arg1)) (W2 m ρ c (Proc.devRef .tc main_arg2)) := entry1_mean m ρ c
  have e2 : V3 m ρ c main_v24 = relu32 (W2 m ρ c (Proc.devRef .tc main_v22)) := entry1_x m ρ c
  have e3 : V3 m ρ c main_v44 = transpose S32x7 [1, 0] (W2 m ρ c (Proc.devRef .tc main_arg6)) transposes_S7x32_S32x7_1_0 := entry1_wl m ρ c
  have e4 : V3 m ρ c main_v45 = transpose S32x7 [1, 0] (W2 m ρ c (Proc.devRef .tc main_arg8)) transposes_S7x32_S32x7_1_0 := entry1_wr m ρ c
  have e5 : V3 m ρ c main_v46 = shapeCast S1x7 (W2 m ρ c (Proc.devRef .tc main_arg7)) shapeCasts_S7_S1x7 := entry1_b m ρ c
  rw [e1, e2, e3, e4, e5, mid_out m ρ c, mid_arg1 m ρ c, mid_arg2 m ρ c, mid_arg6 m ρ c, mid_arg7 m ρ c, mid_arg8 m ρ c]
  simp only [shapeCast_a_1a_apply]
  rfl

/-- The run, read: each result at its function of the arguments, the arguments unchanged. -/
theorem run : θ_run defs (onTc (τ := τ) (main (F := Ideal))) ⟨m, fun _ => 0, ρ⟩ (fun r => ∀ c : Dev nD,
      r.2.mem ((c.tc : Thread nD τ).loc main_v22) = embedding m c
      ∧ r.2.mem ((c.tc : Thread nD τ).loc main_v47) = output m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (out0_eq m ρ c), (h c).2.1.trans (out1_eq m ρ c), (h c).2.2⟩)
    (Cert.KernelIdeal.Run.run_main m ρ)

end Cert.KernelIdeal.Result

end
-- ==== Proof.RefRun.lean ====
/-
  The reference's run, stage by stage. Its 104 host operations are cut into five stretches — the first layer's linear
  part; its normalization and the rectifier; the second layer's linear part; its normalization; the log-softmax —
  and the buffer each stretch computes is named as a function of the buffers it reads. Composing the five gives the
  two results as functions of the nine arguments:
      embedding = norm32 (lin1 x edge_src edge_dst W1_l b1 W1_r)
      output    = lsm7 (norm7 (lin2 (relu32 embedding) edge_src edge_dst W2_l b2 W2_r)).
-/
import proofs.«173884_j83356725281380_1_alg».proof.Proof.RefOps
import Idealize.ShloMosaic.Lib.StableHlo.Run
import Idealize.ShloMosaic.Lib.Pipeline.Frame

set_option maxRecDepth 16384

noncomputable section

namespace Cert.ReferenceIdeal.Stages

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

/-! ## What each stretch computes -/

/-- The mean over each node's incoming edges of the source rows of a [50000, 128] table: the rows gathered at the source ids (a negative id counted from the end), added into the destination ids' rows, each row divided by the larger of its in-degree and one. -/
def meanA (x : (⟨S50000x128, .f32⟩ : BufTy).Contents (Elt F)) (x1 x2 : (⟨S1600000, .i32⟩ : BufTy).Contents (Elt F)) : (⟨S50000x128, .f32⟩ : BufTy).Contents (Elt F) :=
  Host.divf (F := F)
    (Host.scatterAdd (F := F) scatter_S50000x128_S1600000x1_S1600000x128_1_0_0_1
      (broadcastInDim S50000x128 ![] bcast_S_S50000x128 (constant (F := F) S_ .f32 0x00000000#32))
      (broadcastInDim S1600000x1 ![0] bcast_S1600000_S1600000x1_0 x2)
      (Host.gather gather_S50000x128_S1600000x1_S1600000x128_1_0_n_n_0_1_1128 x
        (broadcastInDim S1600000x1 ![0] bcast_S1600000_S1600000x1_0
          (select (cmpi .slt x1 (broadcastInDim S1600000 ![] bcast_S_S1600000 (constantI S_ 32 0#32)))
                  (addi x1 (broadcastInDim S1600000 ![] bcast_S_S1600000 (constantI S_ 32 50000#32))) x1))))
    (broadcastInDim S50000x128 ![0, 1] bcast_S50000x1_S50000x128_0_1
      (broadcastInDim S50000x1 ![0] bcast_S50000_S50000x1_0
        (maximumf (F := F)
          (Host.scatterAdd (F := F) scatter_S50000_S1600000x1_S1600000_n_0_0_1
            (broadcastInDim S50000 ![] bcast_S_S50000 (constant (F := F) S_ .f32 0x00000000#32))
            (broadcastInDim S1600000x1 ![0] bcast_S1600000_S1600000x1_0 x2)
            (broadcastInDim S1600000 ![] bcast_S_S1600000 (constant (F := F) S_ .f32 0x3F800000#32)))
          (broadcastInDim S50000 ![] bcast_S_S50000 (constant (F := F) S_ .f32 0x3F800000#32)))))

/-- The same mean over a [50000, 32] table. -/
def meanB (x : (⟨S50000x32, .f32⟩ : BufTy).Contents (Elt F)) (x1 x2 : (⟨S1600000, .i32⟩ : BufTy).Contents (Elt F)) : (⟨S50000x32, .f32⟩ : BufTy).Contents (Elt F) :=
  Host.divf (F := F)
    (Host.scatterAdd (F := F) scatter_S50000x32_S1600000x1_S1600000x32_1_0_0_1
      (broadcastInDim S50000x32 ![] bcast_S_S50000x32 (constant (F := F) S_ .f32 0x00000000#32))
      (broadcastInDim S1600000x1 ![0] bcast_S1600000_S1600000x1_0 x2)
      (Host.gather gather_S50000x32_S1600000x1_S1600000x32_1_0_n_n_0_1_132 x
        (broadcastInDim S1600000x1 ![0] bcast_S1600000_S1600000x1_0
          (select (cmpi .slt x1 (broadcastInDim S1600000 ![] bcast_S_S1600000 (constantI S_ 32 0#32)))
                  (addi x1 (broadcastInDim S1600000 ![] bcast_S_S1600000 (constantI S_ 32 50000#32))) x1))))
    (broadcastInDim S50000x32 ![0, 1] bcast_S50000x1_S50000x32_0_1
      (broadcastInDim S50000x1 ![0] bcast_S50000_S50000x1_0
        (maximumf (F := F)
          (Host.scatterAdd (F := F) scatter_S50000_S1600000x1_S1600000_n_0_0_1
            (broadcastInDim S50000 ![] bcast_S_S50000 (constant (F := F) S_ .f32 0x00000000#32))
            (broadcastInDim S1600000x1 ![0] bcast_S1600000_S1600000x1_0 x2)
            (broadcastInDim S1600000 ![] bcast_S_S1600000 (constant (F := F) S_ .f32 0x3F800000#32)))
          (broadcastInDim S50000 ![] bcast_S_S50000 (constant (F := F) S_ .f32 0x3F800000#32)))))

/-- The first layer's linear part as the host writes it: the bias is added to the first product, the second product last. -/
def lin1 (x0 : (⟨S50000x128, .f32⟩ : BufTy).Contents (Elt F)) (x1 x2 : (⟨S1600000, .i32⟩ : BufTy).Contents (Elt F)) (x3 : (⟨S32x128, .f32⟩ : BufTy).Contents (Elt F)) (x4 : (⟨S32, .f32⟩ : BufTy).Contents (Elt F)) (x5 : (⟨S32x128, .f32⟩ : BufTy).Contents (Elt F)) : (⟨S50000x32, .f32⟩ : BufTy).Contents (Elt F) :=
  addf (F := F)
    (addf (F := F)
      (Host.dotGeneral (F := F) dot_S50000x128_S128x32_S50000x32_1_0_0_1_n_n none (meanA x0 x1 x2) (transpose S128x32 [1, 0] x3 transposes_S32x128_S128x32_1_0))
      (broadcastInDim S50000x32 ![0, 1] bcast_S1x32_S50000x32_0_1 (broadcastInDim S1x32 ![1] bcast_S32_S1x32_1 x4)))
    (Host.dotGeneral (F := F) dot_S50000x128_S128x32_S50000x32_1_0_0_1_n_n none x0 (transpose S128x32 [1, 0] x5 transposes_S32x128_S128x32_1_0))

/-- Every row of a [50000, 32] table over its Euclidean norm bounded below, as the host writes it. -/
def norm32 (Y : (⟨S50000x32, .f32⟩ : BufTy).Contents (Elt F)) : (⟨S50000x32, .f32⟩ : BufTy).Contents (Elt F) :=
  Host.divf (F := F) Y (broadcastInDim S50000x32 ![0, 1] bcast_S50000x1_S50000x32_0_1
    (maximumf (F := F)
      (Host.sqrt (F := F) (broadcastInDim S50000x1 ![0] bcast_S50000_S50000x1_0
        (Host.reduceAdd (F := F) (mulf Y Y) (constant (F := F) S_ .f32 0x00000000#32) reducesTo_S50000x32_S50000_d1 h_S_)))
      (broadcastInDim S50000x1 ![] bcast_S_S50000x1 (constant (F := F) S_ .f32 0x2B8CBCCC#32))))

/-- The rectifier of a [50000, 32] table. -/
def relu32 (E : (⟨S50000x32, .f32⟩ : BufTy).Contents (Elt F)) : (⟨S50000x32, .f32⟩ : BufTy).Contents (Elt F) :=
  maximumf (F := F) E (broadcastInDim S50000x32 ![] bcast_S_S50000x32 (constant (F := F) S_ .f32 0x00000000#32))

/-- The second layer's linear part as the host writes it. -/
def lin2 (h : (⟨S50000x32, .f32⟩ : BufTy).Contents (Elt F)) (x1 x2 : (⟨S1600000, .i32⟩ : BufTy).Contents (Elt F)) (x6 : (⟨S7x32, .f32⟩ : BufTy).Contents (Elt F)) (x7 : (⟨S7, .f32⟩ : BufTy).Contents (Elt F)) (x8 : (⟨S7x32, .f32⟩ : BufTy).Contents (Elt F)) : (⟨S50000x7, .f32⟩ : BufTy).Contents (Elt F) :=
  addf (F := F)
    (addf (F := F)
      (Host.dotGeneral (F := F) dot_S50000x32_S32x7_S50000x7_1_0_0_1_n_n none (meanB h x1 x2) (transpose S32x7 [1, 0] x6 transposes_S7x32_S32x7_1_0))
      (broadcastInDim S50000x7 ![0, 1] bcast_S1x7_S50000x7_0_1 (broadcastInDim S1x7 ![1] bcast_S7_S1x7_1 x7)))
    (Host.dotGeneral (F := F) dot_S50000x32_S32x7_S50000x7_1_0_0_1_n_n none h (transpose S32x7 [1, 0] x8 transposes_S7x32_S32x7_1_0))

/-- Every row of a [50000, 7] table over its Euclidean norm bounded below, as the host writes it. -/
def norm7 (Y : (⟨S50000x7, .f32⟩ : BufTy).Contents (Elt F)) : (⟨S50000x7, .f32⟩ : BufTy).Contents (Elt F) :=
  Host.divf (F := F) Y (broadcastInDim S50000x7 ![0, 1] bcast_S50000x1_S50000x7_0_1
    (maximumf (F := F)
      (Host.sqrt (F := F) (broadcastInDim S50000x1 ![0] bcast_S50000_S50000x1_0
        (Host.reduceAdd (F := F) (mulf Y Y) (constant (F := F) S_ .f32 0x00000000#32) reducesTo_S50000x7_S50000_d1 h_S_)))
      (broadcastInDim S50000x1 ![] bcast_S_S50000x1 (constant (F := F) S_ .f32 0x2B8CBCCC#32))))

/-- A row's maximum spread back over a [50000, 7] table, as the host writes it: the reduction over axis 1, once more against the lowest value. -/
def rowMax7 (Z : (⟨S50000x7, .f32⟩ : BufTy).Contents (Elt F)) : (⟨S50000x7, .f32⟩ : BufTy).Contents (Elt F) :=
  broadcastInDim S50000x7 ![0, 1] bcast_S50000x1_S50000x7_0_1 (broadcastInDim S50000x1 ![0] bcast_S50000_S50000x1_0
    (maximumf (F := F) (broadcastInDim S50000 ![] bcast_S_S50000 (constant (F := F) S_ .f32 0xFF800000#32))
      (Host.reduce FloatOps.maximumf Z (constant (F := F) S_ .f32 0xFF800000#32) reducesTo_S50000x7_S50000_d1 h_S_)))

/-- The log-softmax along the rows of a [50000, 7] table, as the host writes it. -/
def lsm7 (Z : (⟨S50000x7, .f32⟩ : BufTy).Contents (Elt F)) : (⟨S50000x7, .f32⟩ : BufTy).Contents (Elt F) :=
  subf (F := F) (subf (F := F) Z (rowMax7 Z))
    (broadcastInDim S50000x7 ![0, 1] bcast_S50000x1_S50000x7_0_1 (Host.log (F := F) (broadcastInDim S50000x1 ![0] bcast_S50000_S50000x1_0
      (Host.reduceAdd (F := F) (Host.exp (F := F) (subf (F := F) Z (rowMax7 Z))) (constant (F := F) S_ .f32 0x00000000#32) reducesTo_S50000x7_S50000_d1 h_S_))))

/-! ## The five stretches -/

/-- The first layer's linear part: the neighbourhood means of the features, both products, the bias (operations 1 … 33). -/
abbrev ops1 : List (HloOp τ sig (Elt F)) :=
  [ nullary main_c (constantI S_ 32 0#32),
    unary main_c main_v0 (broadcastInDim S1600000 ![] bcast_S_S1600000 : (⟨S_, .i32⟩ : BufTy).Contents (Elt F) → (⟨S1600000, .i32⟩ : BufTy).Contents (Elt F)),
    binary main_arg1 main_v0 main_v1 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 50000#32),
    unary main_c_0 main_v2 (broadcastInDim S1600000 ![] bcast_S_S1600000 : (⟨S_, .i32⟩ : BufTy).Contents (Elt F) → (⟨S1600000, .i32⟩ : BufTy).Contents (Elt F)),
    binary main_arg1 main_v2 main_v3 (addi : (⟨S1600000, .i32⟩ : BufTy).Contents (Elt F) → (⟨S1600000, .i32⟩ : BufTy).Contents (Elt F) → (⟨S1600000, .i32⟩ : BufTy).Contents (Elt F)),
    ternary main_v1 main_v3 main_arg1 main_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v4 main_v5 (broadcastInDim S1600000x1 ![0] bcast_S1600000_S1600000x1_0 : (⟨S1600000, .i32⟩ : BufTy).Contents (Elt F) → (⟨S1600000x1, .i32⟩ : BufTy).Contents (Elt F)),
    binary main_arg0 main_v5 main_v6 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v7 (broadcastInDim S50000x128 ![] bcast_S_S50000x128 : (⟨S_, .f32⟩ : BufTy).Contents (Elt F) → (⟨S50000x128, .f32⟩ : BufTy).Contents (Elt F)),
    unary main_arg2 main_v8 (broadcastInDim S1600000x1 ![0] bcast_S1600000_S1600000x1_0 : (⟨S1600000, .i32⟩ : BufTy).Contents (Elt F) → (⟨S1600000x1, .i32⟩ : BufTy).Contents (Elt F)),
    ternary main_v7 main_v8 main_v6 main_v9 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    nullary main_cst_1 (constant S_ .f32 0x3F800000#32),
    unary main_cst_1 main_v10 (broadcastInDim S1600000 ![] bcast_S_S1600000 : (⟨S_, .f32⟩ : BufTy).Contents (Elt F) → (⟨S1600000, .f32⟩ : BufTy).Contents (Elt F)),
    nullary main_cst_2 (constant S_ .f32 0x00000000#32),
    unary main_cst_2 main_v11 (broadcastInDim S50000 ![] bcast_S_S50000 : (⟨S_, .f32⟩ : BufTy).Contents (Elt F) → (⟨S50000, .f32⟩ : BufTy).Contents (Elt F)),
    unary main_arg2 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    nullary main_cst_3 (constant S_ .f32 0x3F800000#32),
    unary main_cst_3 main_v14 (broadcastInDim S50000 ![] bcast_S_S50000 : (⟨S_, .f32⟩ : BufTy).Contents (Elt F) → (⟨S50000, .f32⟩ : BufTy).Contents (Elt F)),
    binary main_v13 main_v14 main_v15 (maximumf : (⟨S50000, .f32⟩ : BufTy).Contents (Elt F) → (⟨S50000, .f32⟩ : BufTy).Contents (Elt F) → (⟨S50000, .f32⟩ : BufTy).Contents (Elt F)),
    unary main_v15 main_v16 (broadcastInDim S50000x1 ![0] bcast_S50000_S50000x1_0 : (⟨S50000, .f32⟩ : BufTy).Contents (Elt F) → (⟨S50000x1, .f32⟩ : BufTy).Contents (Elt F)),
    unary main_v16 main_v17 (broadcastInDim S50000x128 ![0, 1] bcast_S50000x1_S50000x128_0_1 : (⟨S50000x1, .f32⟩ : BufTy).Contents (Elt F) → (⟨S50000x128, .f32⟩ : BufTy).Contents (Elt F)),
    binary main_v9 main_v17 main_v18 (Host.divf : (⟨S50000x128, .f32⟩ : BufTy).Contents (Elt F) → (⟨S50000x128, .f32⟩ : BufTy).Contents (Elt F) → (⟨S50000x128, .f32⟩ : BufTy).Contents (Elt F)),
    unary main_arg3 main_v19 ((transpose S128x32 [1, 0] · transposes_S32x128_S128x32_1_0) : (⟨S32x128, .f32⟩ : BufTy).Contents (Elt F) → (⟨S128x32, .f32⟩ : BufTy).Contents (Elt F)),
    binary main_v18 main_v19 main_v20 ((fun l r => Host.dotGeneral dot_S50000x128_S128x32_S50000x32_1_0_0_1_n_n none l r) : (⟨S50000x128, .f32⟩ : BufTy).Contents (Elt F) → (⟨S128x32, .f32⟩ : BufTy).Contents (Elt F) → (⟨S50000x32, .f32⟩ : BufTy).Contents (Elt F)),
    unary main_arg4 main_v21 (broadcastInDim S1x32 ![1] bcast_S32_S1x32_1 : (⟨S32, .f32⟩ : BufTy).Contents (Elt F) → (⟨S1x32, .f32⟩ : BufTy).Contents (Elt F)),
    unary main_v21 main_v22 (broadcastInDim S50000x32 ![0, 1] bcast_S1x32_S50000x32_0_1 : (⟨S1x32, .f32⟩ : BufTy).Contents (Elt F) → (⟨S50000x32, .f32⟩ : BufTy).Contents (Elt F)),
    binary main_v20 main_v22 main_v23 (addf : (⟨S50000x32, .f32⟩ : BufTy).Contents (Elt F) → (⟨S50000x32, .f32⟩ : BufTy).Contents (Elt F) → (⟨S50000x32, .f32⟩ : BufTy).Contents (Elt F)),
    unary main_arg5 main_v24 ((transpose S128x32 [1, 0] · transposes_S32x128_S128x32_1_0) : (⟨S32x128, .f32⟩ : BufTy).Contents (Elt F) → (⟨S128x32, .f32⟩ : BufTy).Contents (Elt F)),
    binary main_arg0 main_v24 main_v25 ((fun l r => Host.dotGeneral dot_S50000x128_S128x32_S50000x32_1_0_0_1_n_n none l r) : (⟨S50000x128, .f32⟩ : BufTy).Contents (Elt F) → (⟨S128x32, .f32⟩ : BufTy).Contents (Elt F) → (⟨S50000x32, .f32⟩ : BufTy).Contents (Elt F)),
    binary main_v23 main_v25 main_v26 (addf : (⟨S50000x32, .f32⟩ : BufTy).Contents (Elt F) → (⟨S50000x32, .f32⟩ : BufTy).Contents (Elt F) → (⟨S50000x32, .f32⟩ : BufTy).Contents (Elt F)) ]

/-- The first layer's normalization and the rectifier (operations 34 … 46). -/
abbrev ops2 : List (HloOp τ sig (Elt F)) :=
  [ TRef.binary (TRef.of (T := ⟨S50000x32, .f32⟩) main_v26) (TRef.of (T := ⟨S50000x32, .f32⟩) main_v26) (TRef.of (T := ⟨S50000x32, .f32⟩) main_call0_v0) mulf,
    TRef.nullary (TRef.of (T := ⟨S_, .f32⟩) main_call0_cst) (constant S_ .f32 0x00000000#32),
    TRef.binary (TRef.of (T := ⟨S50000x32, .f32⟩) main_call0_v0) (TRef.of (T := ⟨S_, .f32⟩) main_call0_cst) (TRef.of (T := ⟨S50000, .f32⟩) main_call0_v1) (fun x v => Host.reduceAdd x v reducesTo_S50000x32_S50000_d1 h_S_),
    TRef.unary (TRef.of (T := ⟨S50000, .f32⟩) main_call0_v1) (TRef.of (T := ⟨S50000x1, .f32⟩) main_call0_v2) (broadcastInDim S50000x1 ![0] bcast_S50000_S50000x1_0),
    TRef.unary (TRef.of (T := ⟨S50000x1, .f32⟩) main_call0_v2) (TRef.of (T := ⟨S50000x1, .f32⟩) main_v27) Host.sqrt,
    nullary main_cst_4 (constant S_ .f32 0x2B8CBCCC#32),
    unary main_cst_4 main_v28 (broadcastInDim S50000x1 ![] bcast_S_S50000x1 : (⟨S_, .f32⟩ : BufTy).Contents (Elt F) → (⟨S50000x1, .f32⟩ : BufTy).Contents (Elt F)),
    binary main_v27 main_v28 main_v29 (maximumf : (⟨S50000x1, .f32⟩ : BufTy).Contents (Elt F) → (⟨S50000x1, .f32⟩ : BufTy).Contents (Elt F) → (⟨S50000x1, .f32⟩ : BufTy).Contents (Elt F)),
    unary main_v29 main_v30 (broadcastInDim S50000x32 ![0, 1] bcast_S50000x1_S50000x32_0_1 : (⟨S50000x1, .f32⟩ : BufTy).Contents (Elt F) → (⟨S50000x32, .f32⟩ : BufTy).Contents (Elt F)),
    binary main_v26 main_v30 main_v31 (Host.divf : (⟨S50000x32, .f32⟩ : BufTy).Contents (Elt F) → (⟨S50000x32, .f32⟩ : BufTy).Contents (Elt F) → (⟨S50000x32, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x32, .f32⟩) main_call1_v0) (broadcastInDim S50000x32 ![] bcast_S_S50000x32),
    TRef.binary (TRef.of (T := ⟨S50000x32, .f32⟩) main_v31) (TRef.of (T := ⟨S50000x32, .f32⟩) main_call1_v0) (TRef.of (T := ⟨S50000x32, .f32⟩) main_v32) maximumf ]

/-- The second layer's linear part over the rectified embedding (operations 47 … 79). -/
abbrev ops3 : List (HloOp τ sig (Elt F)) :=
  [ nullary main_c_5 (constantI S_ 32 0#32),
    unary main_c_5 main_v33 (broadcastInDim S1600000 ![] bcast_S_S1600000 : (⟨S_, .i32⟩ : BufTy).Contents (Elt F) → (⟨S1600000, .i32⟩ : BufTy).Contents (Elt F)),
    binary main_arg1 main_v33 main_v34 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 50000#32),
    unary main_c_6 main_v35 (broadcastInDim S1600000 ![] bcast_S_S1600000 : (⟨S_, .i32⟩ : BufTy).Contents (Elt F) → (⟨S1600000, .i32⟩ : BufTy).Contents (Elt F)),
    binary main_arg1 main_v35 main_v36 (addi : (⟨S1600000, .i32⟩ : BufTy).Contents (Elt F) → (⟨S1600000, .i32⟩ : BufTy).Contents (Elt F) → (⟨S1600000, .i32⟩ : BufTy).Contents (Elt F)),
    ternary main_v34 main_v36 main_arg1 main_v37 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v37 main_v38 (broadcastInDim S1600000x1 ![0] bcast_S1600000_S1600000x1_0 : (⟨S1600000, .i32⟩ : BufTy).Contents (Elt F) → (⟨S1600000x1, .i32⟩ : BufTy).Contents (Elt F)),
    binary main_v32 main_v38 main_v39 ((fun x i => Host.gather gather_S50000x32_S1600000x1_S1600000x32_1_0_n_n_0_1_132 x i) : (⟨S50000x32, .f32⟩ : BufTy).Contents (Elt F) → (⟨S1600000x1, .i32⟩ : BufTy).Contents (Elt F) → (⟨S1600000x32, .f32⟩ : BufTy).Contents (Elt F)),
    nullary main_cst_7 (constant S_ .f32 0x00000000#32),
    unary main_cst_7 main_v40 (broadcastInDim S50000x32 ![] bcast_S_S50000x32 : (⟨S_, .f32⟩ : BufTy).Contents (Elt F) → (⟨S50000x32, .f32⟩ : BufTy).Contents (Elt F)),
    unary main_arg2 main_v41 (broadcastInDim S1600000x1 ![0] bcast_S1600000_S1600000x1_0 : (⟨S1600000, .i32⟩ : BufTy).Contents (Elt F) → (⟨S1600000x1, .i32⟩ : BufTy).Contents (Elt F)),
    ternary main_v40 main_v41 main_v39 main_v42 ((fun x i u => Host.scatterAdd scatter_S50000x32_S1600000x1_S1600000x32_1_0_0_1 x i u) : (⟨S50000x32, .f32⟩ : BufTy).Contents (Elt F) → (⟨S1600000x1, .i32⟩ : BufTy).Contents (Elt F) → (⟨S1600000x32, .f32⟩ : BufTy).Contents (Elt F) → (⟨S50000x32, .f32⟩ : BufTy).Contents (Elt F)),
    nullary main_cst_8 (constant S_ .f32 0x3F800000#32),
    unary main_cst_8 main_v43 (broadcastInDim S1600000 ![] bcast_S_S1600000 : (⟨S_, .f32⟩ : BufTy).Contents (Elt F) → (⟨S1600000, .f32⟩ : BufTy).Contents (Elt F)),
    nullary main_cst_9 (constant S_ .f32 0x00000000#32),
    unary main_cst_9 main_v44 (broadcastInDim S50000 ![] bcast_S_S50000 : (⟨S_, .f32⟩ : BufTy).Contents (Elt F) → (⟨S50000, .f32⟩ : BufTy).Contents (Elt F)),
    unary main_arg2 main_v45 (broadcastInDim S1600000x1 ![0] bcast_S1600000_S1600000x1_0 : (⟨S1600000, .i32⟩ : BufTy).Contents (Elt F) → (⟨S1600000x1, .i32⟩ : BufTy).Contents (Elt F)),
    ternary main_v44 main_v45 main_v43 main_v46 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    nullary main_cst_10 (constant S_ .f32 0x3F800000#32),
    unary main_cst_10 main_v47 (broadcastInDim S50000 ![] bcast_S_S50000 : (⟨S_, .f32⟩ : BufTy).Contents (Elt F) → (⟨S50000, .f32⟩ : BufTy).Contents (Elt F)),
    binary main_v46 main_v47 main_v48 (maximumf : (⟨S50000, .f32⟩ : BufTy).Contents (Elt F) → (⟨S50000, .f32⟩ : BufTy).Contents (Elt F) → (⟨S50000, .f32⟩ : BufTy).Contents (Elt F)),
    unary main_v48 main_v49 (broadcastInDim S50000x1 ![0] bcast_S50000_S50000x1_0 : (⟨S50000, .f32⟩ : BufTy).Contents (Elt F) → (⟨S50000x1, .f32⟩ : BufTy).Contents (Elt F)),
    unary main_v49 main_v50 (broadcastInDim S50000x32 ![0, 1] bcast_S50000x1_S50000x32_0_1 : (⟨S50000x1, .f32⟩ : BufTy).Contents (Elt F) → (⟨S50000x32, .f32⟩ : BufTy).Contents (Elt F)),
    binary main_v42 main_v50 main_v51 (Host.divf : (⟨S50000x32, .f32⟩ : BufTy).Contents (Elt F) → (⟨S50000x32, .f32⟩ : BufTy).Contents (Elt F) → (⟨S50000x32, .f32⟩ : BufTy).Contents (Elt F)),
    unary main_arg6 main_v52 ((transpose S32x7 [1, 0] · transposes_S7x32_S32x7_1_0) : (⟨S7x32, .f32⟩ : BufTy).Contents (Elt F) → (⟨S32x7, .f32⟩ : BufTy).Contents (Elt F)),
    binary main_v51 main_v52 main_v53 ((fun l r => Host.dotGeneral dot_S50000x32_S32x7_S50000x7_1_0_0_1_n_n none l r) : (⟨S50000x32, .f32⟩ : BufTy).Contents (Elt F) → (⟨S32x7, .f32⟩ : BufTy).Contents (Elt F) → (⟨S50000x7, .f32⟩ : BufTy).Contents (Elt F)),
    unary main_arg7 main_v54 (broadcastInDim S1x7 ![1] bcast_S7_S1x7_1 : (⟨S7, .f32⟩ : BufTy).Contents (Elt F) → (⟨S1x7, .f32⟩ : BufTy).Contents (Elt F)),
    unary main_v54 main_v55 (broadcastInDim S50000x7 ![0, 1] bcast_S1x7_S50000x7_0_1 : (⟨S1x7, .f32⟩ : BufTy).Contents (Elt F) → (⟨S50000x7, .f32⟩ : BufTy).Contents (Elt F)),
    binary main_v53 main_v55 main_v56 (addf : (⟨S50000x7, .f32⟩ : BufTy).Contents (Elt F) → (⟨S50000x7, .f32⟩ : BufTy).Contents (Elt F) → (⟨S50000x7, .f32⟩ : BufTy).Contents (Elt F)),
    unary main_arg8 main_v57 ((transpose S32x7 [1, 0] · transposes_S7x32_S32x7_1_0) : (⟨S7x32, .f32⟩ : BufTy).Contents (Elt F) → (⟨S32x7, .f32⟩ : BufTy).Contents (Elt F)),
    binary main_v32 main_v57 main_v58 ((fun l r => Host.dotGeneral dot_S50000x32_S32x7_S50000x7_1_0_0_1_n_n none l r) : (⟨S50000x32, .f32⟩ : BufTy).Contents (Elt F) → (⟨S32x7, .f32⟩ : BufTy).Contents (Elt F) → (⟨S50000x7, .f32⟩ : BufTy).Contents (Elt F)),
    binary main_v56 main_v58 main_v59 (addf : (⟨S50000x7, .f32⟩ : BufTy).Contents (Elt F) → (⟨S50000x7, .f32⟩ : BufTy).Contents (Elt F) → (⟨S50000x7, .f32⟩ : BufTy).Contents (Elt F)) ]

/-- The second layer's normalization (operations 80 … 89). -/
abbrev ops4 : List (HloOp τ sig (Elt F)) :=
  [ TRef.binary (TRef.of (T := ⟨S50000x7, .f32⟩) main_v59) (TRef.of (T := ⟨S50000x7, .f32⟩) main_v59) (TRef.of (T := ⟨S50000x7, .f32⟩) main_call2_v0) mulf,
    TRef.nullary (TRef.of (T := ⟨S_, .f32⟩) main_call2_cst) (constant S_ .f32 0x00000000#32),
    TRef.binary (TRef.of (T := ⟨S50000x7, .f32⟩) main_call2_v0) (TRef.of (T := ⟨S_, .f32⟩) main_call2_cst) (TRef.of (T := ⟨S50000, .f32⟩) main_call2_v1) (fun x v => Host.reduceAdd x v reducesTo_S50000x7_S50000_d1 h_S_),
    TRef.unary (TRef.of (T := ⟨S50000, .f32⟩) main_call2_v1) (TRef.of (T := ⟨S50000x1, .f32⟩) main_call2_v2) (broadcastInDim S50000x1 ![0] bcast_S50000_S50000x1_0),
    TRef.unary (TRef.of (T := ⟨S50000x1, .f32⟩) main_call2_v2) (TRef.of (T := ⟨S50000x1, .f32⟩) main_v60) Host.sqrt,
    nullary main_cst_11 (constant S_ .f32 0x2B8CBCCC#32),
    unary main_cst_11 main_v61 (broadcastInDim S50000x1 ![] bcast_S_S50000x1 : (⟨S_, .f32⟩ : BufTy).Contents (Elt F) → (⟨S50000x1, .f32⟩ : BufTy).Contents (Elt F)),
    binary main_v60 main_v61 main_v62 (maximumf : (⟨S50000x1, .f32⟩ : BufTy).Contents (Elt F) → (⟨S50000x1, .f32⟩ : BufTy).Contents (Elt F) → (⟨S50000x1, .f32⟩ : BufTy).Contents (Elt F)),
    unary main_v62 main_v63 (broadcastInDim S50000x7 ![0, 1] bcast_S50000x1_S50000x7_0_1 : (⟨S50000x1, .f32⟩ : BufTy).Contents (Elt F) → (⟨S50000x7, .f32⟩ : BufTy).Contents (Elt F)),
    binary main_v59 main_v63 main_v64 (Host.divf : (⟨S50000x7, .f32⟩ : BufTy).Contents (Elt F) → (⟨S50000x7, .f32⟩ : BufTy).Contents (Elt F) → (⟨S50000x7, .f32⟩ : BufTy).Contents (Elt F)) ]

/-- The log-softmax (operations 90 … 104). -/
abbrev ops5 : List (HloOp τ sig (Elt F)) :=
  [ TRef.nullary (TRef.of (T := ⟨S_, .f32⟩) main_call3_cst) (constant S_ .f32 0xFF800000#32),
    TRef.binary (TRef.of (T := ⟨S50000x7, .f32⟩) main_v64) (TRef.of (T := ⟨S_, .f32⟩) main_call3_cst) (TRef.of (T := ⟨S50000, .f32⟩) main_call3_v0) (fun x v => Host.reduce FloatOps.maximumf x v reducesTo_S50000x7_S50000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf,
    TRef.unary (TRef.of (T := ⟨S50000, .f32⟩) main_call3_v2) (TRef.of (T := ⟨S50000x1, .f32⟩) main_call3_v3) (broadcastInDim S50000x1 ![0] bcast_S50000_S50000x1_0),
    TRef.unary (TRef.of (T := ⟨S50000x1, .f32⟩) main_call3_v3) (TRef.of (T := ⟨S50000x7, .f32⟩) main_call3_v4) (broadcastInDim S50000x7 ![0, 1] bcast_S50000x1_S50000x7_0_1),
    TRef.binary (TRef.of (T := ⟨S50000x7, .f32⟩) main_v64) (TRef.of (T := ⟨S50000x7, .f32⟩) main_call3_v4) (TRef.of (T := ⟨S50000x7, .f32⟩) main_call3_v5) subf,
    TRef.unary (TRef.of (T := ⟨S50000x7, .f32⟩) main_call3_v5) (TRef.of (T := ⟨S50000x7, .f32⟩) main_call3_v6) Host.exp,
    TRef.nullary (TRef.of (T := ⟨S_, .f32⟩) main_call3_cst_1) (constant S_ .f32 0x00000000#32),
    TRef.binary (TRef.of (T := ⟨S50000x7, .f32⟩) main_call3_v6) (TRef.of (T := ⟨S_, .f32⟩) main_call3_cst_1) (TRef.of (T := ⟨S50000, .f32⟩) main_call3_v7) (fun x v => Host.reduceAdd x v reducesTo_S50000x7_S50000_d1 h_S_),
    TRef.unary (TRef.of (T := ⟨S50000, .f32⟩) main_call3_v7) (TRef.of (T := ⟨S50000x1, .f32⟩) main_call3_v8) (broadcastInDim S50000x1 ![0] bcast_S50000_S50000x1_0),
    TRef.unary (TRef.of (T := ⟨S50000x1, .f32⟩) main_call3_v8) (TRef.of (T := ⟨S50000x1, .f32⟩) main_call3_v9) Host.log,
    TRef.unary (TRef.of (T := ⟨S50000x1, .f32⟩) main_call3_v9) (TRef.of (T := ⟨S50000x7, .f32⟩) main_call3_v10) (broadcastInDim S50000x7 ![0, 1] bcast_S50000x1_S50000x7_0_1),
    TRef.binary (TRef.of (T := ⟨S50000x7, .f32⟩) main_call3_v5) (TRef.of (T := ⟨S50000x7, .f32⟩) main_call3_v10) (TRef.of (T := ⟨S50000x7, .f32⟩) main_v65) subf ]

/-- The stretches in order are the whole line. -/
theorem ops_eq : (ops : List (HloOp τ sig (Elt F))) = ops1 ++ (ops2 ++ (ops3 ++ (ops4 ++ ops5))) := rfl

variable (W : Valuation τ sig (Elt F))

theorem after_ops : after ops W = after ops5 (after ops4 (after ops3 (after ops2 (after ops1 W)))) := by
  rw [ops_eq, StableHlo.after_append, StableHlo.after_append, StableHlo.after_append, StableHlo.after_append]

/-! ## Stretch 1 -/

set_option maxHeartbeats 4000000 in
theorem stage1 : after ops1 W (Proc.devRef .tc main_v26) = lin1 (W (Proc.devRef .tc main_arg0)) (W (Proc.devRef .tc main_arg1)) (W (Proc.devRef .tc main_arg2)) (W (Proc.devRef .tc main_arg3)) (W (Proc.devRef .tc main_arg4)) (W (Proc.devRef .tc main_arg5)) := by
  after_results_simp <;> rfl
theorem keep1_arg1 : after ops1 W (Proc.devRef .tc main_arg1) = W (Proc.devRef .tc main_arg1) := by after_results_simp <;> rfl
theorem keep1_arg2 : after ops1 W (Proc.devRef .tc main_arg2) = W (Proc.devRef .tc main_arg2) := by after_results_simp <;> rfl
theorem keep1_arg6 : after ops1 W (Proc.devRef .tc main_arg6) = W (Proc.devRef .tc main_arg6) := by after_results_simp <;> rfl
theorem keep1_arg7 : after ops1 W (Proc.devRef .tc main_arg7) = W (Proc.devRef .tc main_arg7) := by after_results_simp <;> rfl
theorem keep1_arg8 : after ops1 W (Proc.devRef .tc main_arg8) = W (Proc.devRef .tc main_arg8) := by after_results_simp <;> rfl

/-! ## Stretch 2 -/

set_option maxHeartbeats 4000000 in
theorem stage2_embedding : after ops2 W (Proc.devRef .tc main_v31) = norm32 (W (Proc.devRef .tc main_v26)) := by
  after_results_simp <;> rfl
set_option maxHeartbeats 4000000 in
theorem stage2_rectified : after ops2 W (Proc.devRef .tc main_v32) = relu32 (norm32 (W (Proc.devRef .tc main_v26))) := by
  after_results_simp <;> rfl
theorem keep2_arg1 : after ops2 W (Proc.devRef .tc main_arg1) = W (Proc.devRef .tc main_arg1) := by after_results_simp <;> rfl
theorem keep2_arg2 : after ops2 W (Proc.devRef .tc main_arg2) = W (Proc.devRef .tc main_arg2) := by after_results_simp <;> rfl
theorem keep2_arg6 : after ops2 W (Proc.devRef .tc main_arg6) = W (Proc.devRef .tc main_arg6) := by after_results_simp <;> rfl
theorem keep2_arg7 : after ops2 W (Proc.devRef .tc main_arg7) = W (Proc.devRef .tc main_arg7) := by after_results_simp <;> rfl
theorem keep2_arg8 : after ops2 W (Proc.devRef .tc main_arg8) = W (Proc.devRef .tc main_arg8) := by after_results_simp <;> rfl

/-! ## Stretch 3 -/

set_option maxHeartbeats 4000000 in
theorem stage3 : after ops3 W (Proc.devRef .tc main_v59) = lin2 (W (Proc.devRef .tc main_v32)) (W (Proc.devRef .tc main_arg1)) (W (Proc.devRef .tc main_arg2)) (W (Proc.devRef .tc main_arg6)) (W (Proc.devRef .tc main_arg7)) (W (Proc.devRef .tc main_arg8)) := by
  after_results_simp <;> rfl
theorem keep3_v31 : after ops3 W (Proc.devRef .tc main_v31) = W (Proc.devRef .tc main_v31) := by after_results_simp <;> rfl

/-! ## Stretch 4 -/

set_option maxHeartbeats 4000000 in
theorem stage4 : after ops4 W (Proc.devRef .tc main_v64) = norm7 (W (Proc.devRef .tc main_v59)) := by
  after_results_simp <;> rfl
theorem keep4_v31 : after ops4 W (Proc.devRef .tc main_v31) = W (Proc.devRef .tc main_v31) := by after_results_simp <;> rfl

/-! ## Stretch 5 -/

set_option maxHeartbeats 4000000 in
theorem stage5 : after ops5 W (Proc.devRef .tc main_v65) = lsm7 (W (Proc.devRef .tc main_v64)) := by
  after_results_simp <;> (try simp only [TRef.ofBuf, TRef.toBuf, cast_eq]) <;> rfl
theorem keep5_v31 : after ops5 W (Proc.devRef .tc main_v31) = W (Proc.devRef .tc main_v31) := by after_results_simp <;> rfl

/-! ## The two results -/

/-- The first result after the whole line. -/
theorem embedding_eq : after ops W (Proc.devRef .tc main_v31)
    = norm32 (lin1 (W (Proc.devRef .tc main_arg0)) (W (Proc.devRef .tc main_arg1)) (W (Proc.devRef .tc main_arg2)) (W (Proc.devRef .tc main_arg3)) (W (Proc.devRef .tc main_arg4)) (W (Proc.devRef .tc main_arg5))) := by
  rw [after_ops, keep5_v31, keep4_v31, keep3_v31, stage2_embedding, stage1]

/-- The second result after the whole line. -/
theorem output_eq : after ops W (Proc.devRef .tc main_v65)
    = lsm7 (norm7 (lin2 (relu32 (norm32 (lin1 (W (Proc.devRef .tc main_arg0)) (W (Proc.devRef .tc main_arg1)) (W (Proc.devRef .tc main_arg2)) (W (Proc.devRef .tc main_arg3)) (W (Proc.devRef .tc main_arg4)) (W (Proc.devRef .tc main_arg5)))))
        (W (Proc.devRef .tc main_arg1)) (W (Proc.devRef .tc main_arg2)) (W (Proc.devRef .tc main_arg6)) (W (Proc.devRef .tc main_arg7)) (W (Proc.devRef .tc main_arg8)))) := by
  rw [after_ops, stage5, stage4, stage3, stage2_rectified, stage1,
    keep2_arg1, keep1_arg1, keep2_arg2, keep1_arg2, keep2_arg6, keep1_arg6, keep2_arg7, keep1_arg7, keep2_arg8, keep1_arg8]

/-! ## The run -/

set_option maxRecDepth 16384 in
set_option maxHeartbeats 41600000 in
/-- On every device, from any memory with zero counters: every weakly fair execution of the reference terminates with
    the two results at the functions above of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31)
          = norm32 (lin1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
      ∧ r.2.mem ((c.tc : Thread nD τ).loc main_v65)
          = lsm7 (norm7 (lin2 (relu32 (norm32 (lin1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))))
              (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg8))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v31).trans (embedding_eq _),
      (h c main_v65).trans (output_eq _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl)⟩)
    (run_seq scopedRefs_eq scopedSems_eq defs main (fun _ => ops) main_eq (fun _ => ops_sub) m ρ)

end Cert.ReferenceIdeal.Stages

end
-- ==== Proof.RefValue.lean ====
/-
  The reference's two results as the specification's functions. Each host form of the run — the linear part with the
  bias added before the second product, the row normalization through a reduction and two broadcasts, the log-softmax
  with its row maximum taken once more against the lowest value — is read at an entry and is the corresponding
  function of the specification; that addition is commutative and associative is the only law used, and no entry needs to
  be finite.
-/
import proofs.«173884_j83356725281380_1_alg».proof.Proof.RefRun
import proofs.«173884_j83356725281380_1_alg».proof.Proof.LibGraphLayer

set_option maxRecDepth 16384

noncomputable section

namespace Cert.ReferenceIdeal.RefValue

open Cert.ReferenceIdeal Cert.ReferenceIdeal.Gen Cert.ReferenceIdeal.Stages Cert.GraphLayer
open Idealize.ShloMosaic Idealize.ShloMosaic.TcCoe Idealize.ShloMosaic.ValueIdx

/-- The printed record of the first layer's two products is the plain [50000,128]·[128,32] product. -/
theorem dotA_plain : dot_S50000x128_S128x32_S50000x32_1_0_0_1_n_n = DotDims.plain 50000 128 32 := rfl

/-- The printed record of the second layer's two products is the plain [50000,32]·[32,7] product. -/
theorem dotB_plain : dot_S50000x32_S32x7_S50000x7_1_0_0_1_n_n = DotDims.plain 50000 32 7 := rfl

/-- A [b] vector made the one row [1, b] by a broadcast along axis 1. -/
theorem bcastRow_apply {α : Type} {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- One row [1, b] spread over a rows by a broadcast along both axes. -/
theorem bcastRowSpread_apply {α : Type} {a b : ℕ} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : ℕ) = if (1 : ℕ) = 1 then 0 else p.val
    rw [if_pos rfl]
  | ⟨1, _⟩ =>
    show q.val = if b = 1 then 0 else q.val
    split
    · have := q.isLt; omega
    · rfl

/-- The first layer's linear part, as the host writes it, is the layer's linear part. -/
theorem lin1_eq (x0 : FVec Ideal S50000x128 .f32) (x1 x2 : IVec S1600000 32) (x3 : FVec Ideal S32x128 .f32) (x4 : FVec Ideal S32 .f32)
    (x5 : FVec Ideal S32x128 .f32) :
    lin1 (F := Ideal) x0 x1 x2 x3 x4 x5
      = Cert.Sage.lin (meanA (F := Ideal) x0 x1 x2) x0 (transpose S128x32 [1, 0] x3 transposes_S32x128_S128x32_1_0)
          (transpose S128x32 [1, 0] x5 transposes_S32x128_S128x32_1_0) (fun q => x4 (ix1 q)) := by
  unfold lin1
  exact Cert.Sage.host_eq_lin _ dotA_plain _ _ _ _ _ _
    (fun p q => (bcastRowSpread_apply _ bcast_S1x32_S50000x32_0_1 p q).trans (bcastRow_apply x4 bcast_S32_S1x32_1 0 q))

/-- The second layer's linear part, as the host writes it, is the layer's linear part. -/
theorem lin2_eq (h : FVec Ideal S50000x32 .f32) (x1 x2 : IVec S1600000 32) (x6 : FVec Ideal S7x32 .f32) (x7 : FVec Ideal S7 .f32)
    (x8 : FVec Ideal S7x32 .f32) :
    lin2 (F := Ideal) h x1 x2 x6 x7 x8
      = Cert.Sage.lin (meanB (F := Ideal) h x1 x2) h (transpose S32x7 [1, 0] x6 transposes_S7x32_S32x7_1_0)
          (transpose S32x7 [1, 0] x8 transposes_S7x32_S32x7_1_0) (fun q => x7 (ix1 q)) := by
  unfold lin2
  exact Cert.Sage.host_eq_lin _ dotB_plain _ _ _ _ _ _
    (fun p q => (bcastRowSpread_apply _ bcast_S1x7_S50000x7_0_1 p q).trans (bcastRow_apply x7 bcast_S7_S1x7_1 0 q))

/-- The host's normalization of a [50000, 32] table is the specification's. -/
theorem norm32_eq (Y : FVec Ideal S50000x32 .f32) : norm32 (F := Ideal) Y = normalize Y := by
  funext i
  obtain ⟨p, q, rfl⟩ : ∃ (p : Fin 50000) (q : Fin 32), i = ix2 p q := ⟨i 0, i 1, eq_ix2 i⟩
  unfold norm32
  exact hostNorm_apply Y reducesTo_S50000x32_S50000_d1 (by decide) h_S_ bcast_S50000_S50000x1_0 bcast_S_S50000x1
    bcast_S50000x1_S50000x32_0_1 p q

/-- The host's normalization of a [50000, 7] table is the specification's. -/
theorem norm7_eq (Y : FVec Ideal S50000x7 .f32) : norm7 (F := Ideal) Y = normalize Y := by
  funext i
  obtain ⟨p, q, rfl⟩ : ∃ (p : Fin 50000) (q : Fin 7), i = ix2 p q := ⟨i 0, i 1, eq_ix2 i⟩
  unfold norm7
  exact hostNorm_apply Y reducesTo_S50000x7_S50000_d1 (by decide) h_S_ bcast_S50000_S50000x1_0 bcast_S_S50000x1
    bcast_S50000x1_S50000x7_0_1 p q

/-- The host's log-softmax of a [50000, 7] table is the specification's. -/
theorem lsm7_eq (Z : FVec Ideal S50000x7 .f32) : lsm7 (F := Ideal) Z = logSoftmax Z := by
  funext i
  obtain ⟨p, q, rfl⟩ : ∃ (p : Fin 50000) (q : Fin 7), i = ix2 p q := ⟨i 0, i 1, eq_ix2 i⟩
  unfold lsm7 rowMax7
  exact hostLogSoftmax_apply Z reducesTo_S50000x7_S50000_d1 (by decide) h_S_ bcast_S_S50000 bcast_S50000_S50000x1_0
    bcast_S50000x1_S50000x7_0_1 p q

/-- The reference's first result is the first layer's table. -/
theorem embedding_spec (x0 : FVec Ideal S50000x128 .f32) (x1 x2 : IVec S1600000 32) (x3 : FVec Ideal S32x128 .f32) (x4 : FVec Ideal S32 .f32)
    (x5 : FVec Ideal S32x128 .f32) :
    norm32 (F := Ideal) (lin1 (F := Ideal) x0 x1 x2 x3 x4 x5)
      = embed (meanA (F := Ideal) x0 x1 x2) x0 (transpose S128x32 [1, 0] x3 transposes_S32x128_S128x32_1_0)
          (transpose S128x32 [1, 0] x5 transposes_S32x128_S128x32_1_0) (fun q => x4 (ix1 q)) := by
  rw [norm32_eq, lin1_eq]
  rfl

/-- The reference's second result is the second layer's table of the rectified first. -/
theorem output_spec (h : FVec Ideal S50000x32 .f32) (x1 x2 : IVec S1600000 32) (x6 : FVec Ideal S7x32 .f32) (x7 : FVec Ideal S7 .f32)
    (x8 : FVec Ideal S7x32 .f32) :
    lsm7 (F := Ideal) (norm7 (F := Ideal) (lin2 (F := Ideal) h x1 x2 x6 x7 x8))
      = classify (meanB (F := Ideal) h x1 x2) h (transpose S32x7 [1, 0] x6 transposes_S7x32_S32x7_1_0)
          (transpose S32x7 [1, 0] x8 transposes_S7x32_S32x7_1_0) (fun q => x7 (ix1 q)) := by
  rw [lsm7_eq, norm7_eq, lin2_eq]
  rfl

end Cert.ReferenceIdeal.RefValue

end
-- ==== Proof.lean ====
/-
  A two-layer graph convolution (mean aggregation over incoming edges, a linear part of the aggregate and of the node's
  own features, each row divided by its Euclidean norm bounded below, a rectifier between the layers, a log-softmax at
  the end), computed by two tiled kernels among host operations, against the same network written with host operations
  only. Over the extended reals both programs compute, for every node r,

      embedding(r, ·) = normRow (mean₁(r, ·)·W1_lᵀ + x(r, ·)·W1_rᵀ + b1)
      output(r, ·)    = logsmRow (normRow (mean₂(r, ·)·W2_lᵀ + h(r, ·)·W2_rᵀ + b2)),   h = max(embedding, 0),

  where mean₁, mean₂ are the neighbourhood means of x and of h — the same host operations in both programs. The kernel adds
  the bias after both products and the reference between them; addition of extended reals is commutative and
  associative, so the two agree at every entry whatever the inputs are, and the precondition is not used.

  The kernel's side is read off its run region by region (each region's output array is ONE whole-array function of the
  arrays it finds, its 25 row blocks covering the array); the reference's side off its run stretch by stretch.
-/
import proofs.«173884_j83356725281380_1_alg».proof.Defs
import proofs.«173884_j83356725281380_1_alg».proof.Proof.Gen.Kernel
import proofs.«173884_j83356725281380_1_alg».proof.Proof.Gen.Kernel.Skeleton
import proofs.«173884_j83356725281380_1_alg».proof.Proof.Gen.Kernel.Launch
import proofs.«173884_j83356725281380_1_alg».proof.Proof.Gen.Kernel.Points
import proofs.«173884_j83356725281380_1_alg».proof.Proof.Gen.Kernel.Frame
import proofs.«173884_j83356725281380_1_alg».proof.Proof.Gen.KernelIdeal
import proofs.«173884_j83356725281380_1_alg».proof.Proof.Gen.KernelIdeal.Skeleton
import proofs.«173884_j83356725281380_1_alg».proof.Proof.Gen.KernelIdeal.Launch
import proofs.«173884_j83356725281380_1_alg».proof.Proof.Gen.KernelIdeal.Points
import proofs.«173884_j83356725281380_1_alg».proof.Proof.Gen.KernelIdeal.Frame
import proofs.«173884_j83356725281380_1_alg».proof.Proof.Gen.ReferenceIdeal
import proofs.«173884_j83356725281380_1_alg».proof.Proof.Gen.Pre_finite_inputs
import proofs.«173884_j83356725281380_1_alg».proof.Proof.KernelValue
import proofs.«173884_j83356725281380_1_alg».proof.Proof.RefValue
import Idealize.ShloMosaic.Adequacy
import Idealize.ShloMosaic.Init

set_option maxRecDepth 16384

noncomputable section

namespace Cert.Proof

open Idealize.ShloMosaic Idealize.SL.Sem

/-! ## The host operations the two programs share -/

section Shared

variable {F : FTy → Type} [FloatOps F]

/-- The neighbourhood mean of the feature rows is the same operations in both programs. -/
theorem meanA_eq (x : (⟨Cert.ReferenceIdeal.S50000x128, .f32⟩ : BufTy).Contents (Elt F))
    (x1 x2 : (⟨Cert.ReferenceIdeal.S1600000, .i32⟩ : BufTy).Contents (Elt F)) :
    Cert.ReferenceIdeal.Stages.meanA (F := F) x x1 x2 = Cert.KernelIdeal.HostSide.meanA (F := F) x x1 x2 := rfl

/-- So is the neighbourhood mean of the rectified embedding's rows. -/
theorem meanB_eq (h : (⟨Cert.ReferenceIdeal.S50000x32, .f32⟩ : BufTy).Contents (Elt F))
    (x1 x2 : (⟨Cert.ReferenceIdeal.S1600000, .i32⟩ : BufTy).Contents (Elt F)) :
    Cert.ReferenceIdeal.Stages.meanB (F := F) h x1 x2 = Cert.KernelIdeal.HostSide.meanB (F := F) h x1 x2 := rfl

/-- And the rectifier. -/
theorem relu32_eq (E : (⟨Cert.ReferenceIdeal.S50000x32, .f32⟩ : BufTy).Contents (Elt F)) :
    Cert.ReferenceIdeal.Stages.relu32 (F := F) E = Cert.KernelIdeal.HostSide.relu32 (F := F) E := rfl

end Shared

/-! ## The reference's results are the kernel's functions -/

open Cert.ReferenceIdeal.Stages in
/-- The reference's first result is the kernel's first layer's table of the same arguments. -/
theorem ref_embedding (x0 : FVec Ideal Cert.ReferenceIdeal.S50000x128 .f32) (x1 x2 : IVec Cert.ReferenceIdeal.S1600000 32)
    (x3 : FVec Ideal Cert.ReferenceIdeal.S32x128 .f32) (x4 : FVec Ideal Cert.ReferenceIdeal.S32 .f32)
    (x5 : FVec Ideal Cert.ReferenceIdeal.S32x128 .f32) :
    norm32 (F := Ideal) (lin1 (F := Ideal) x0 x1 x2 x3 x4 x5) = Cert.KernelIdeal.Result.embeddingOf x0 x1 x2 x3 x4 x5 := by
  rw [Cert.ReferenceIdeal.RefValue.embedding_spec, meanA_eq]
  rfl

open Cert.ReferenceIdeal.Stages in
/-- The reference's second result is the kernel's second layer's table of the same rectified embedding and arguments. -/
theorem ref_output (h : FVec Ideal Cert.ReferenceIdeal.S50000x32 .f32) (x1 x2 : IVec Cert.ReferenceIdeal.S1600000 32)
    (x6 : FVec Ideal Cert.ReferenceIdeal.S7x32 .f32) (x7 : FVec Ideal Cert.ReferenceIdeal.S7 .f32)
    (x8 : FVec Ideal Cert.ReferenceIdeal.S7x32 .f32) :
    lsm7 (F := Ideal) (norm7 (F := Ideal) (lin2 (F := Ideal) h x1 x2 x6 x7 x8)) = Cert.KernelIdeal.Result.outputOf h x1 x2 x6 x7 x8 := by
  rw [Cert.ReferenceIdeal.RefValue.output_spec, meanB_eq]
  rfl

/-! ## The claims -/

/-- The word-level kernel runs and leaves its arguments as launched: the generated frame over its two regions. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments as launched: its run with the two results dropped. -/
theorem frame_ri : Cert.frame_ReferenceIdeal := fun m ρ _ =>
  (θ_run Cert.ReferenceIdeal.defs _ _).mono (fun _ h c => (h c).2.2) (Cert.ReferenceIdeal.Stages.run (F := Ideal) m ρ)

/-- From memories that agree on the arguments both programs end with the first layer's table and the second layer's
    table of those arguments. -/
theorem algebraic : Cert.algebraic_KernelIdeal_ReferenceIdeal := by
  intro m ρ m' ρ' _ hagree
  refine ⟨fun c => Cert.KernelIdeal.Result.embedding m c, fun c => Cert.KernelIdeal.Result.output m c,
    Cert.KernelIdeal.Result.run m ρ, ?_⟩
  refine (θ_run Cert.ReferenceIdeal.defs _ _).mono (fun r h c => ?_) (Cert.ReferenceIdeal.Stages.run (F := Ideal) m' ρ')
  obtain ⟨h0, h1, hargs⟩ := h c
  obtain ⟨a0, a1, a2, a3, a4, a5, a6, a7, a8⟩ := hagree c
  refine ⟨h0.trans ?_, h1.trans ?_, hargs⟩
  · rw [a0, a1, a2, a3, a4, a5]
    exact ref_embedding _ _ _ _ _ _
  · rw [a0, a1, a2, a3, a4, a5, a6, a7, a8, ref_embedding, relu32_eq]
    exact ref_output _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
